-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S70000x1044 : Shape := ⟨2, ![70000, 1044]⟩
abbrev S2x500000 : Shape := ⟨2, ![2, 500000]⟩
abbrev S500000x1 : Shape := ⟨2, ![500000, 1]⟩
abbrev S1044x128 : Shape := ⟨2, ![1044, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S70000x1044 : S_.BroadcastsInDim S70000x1044 (![] : Fin 0 → Fin S70000x1044.rank)
  reducesTo_S70000x1044_S_d0_1 : S70000x1044.ReducesTo [0, 1] S_
  h_S_ : 0 < S_.numel
  bcast_S_S500000x1 : S_.BroadcastsInDim S500000x1 (![] : Fin 0 → Fin S500000x1.rank)
  reducesTo_S500000x1_S_d0_1 : S500000x1.ReducesTo [0, 1] S_
  bcast_S_S1044x128 : S_.BroadcastsInDim S1044x128 (![] : Fin 0 → Fin S1044x128.rank)
  reducesTo_S1044x128_S_d0_1 : S1044x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg9 : FVec F S128x64 .f32) (main_v33 : IVec S_ 1) : IVec S_ 1 :=
  let main_v34 : FVec F S128x64 .f32 := Host.absf main_arg9
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  main_v38

def fn_part1 {F : FTy → Type} [FloatOps F] (main_arg6 : FVec F S1044x128 .f32) (main_arg7 : FVec F S128x64 .f32) (main_arg8 : FVec F S64 .f32) (main_arg9 : FVec F S128x64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S1044x128 .f32 := Host.absf main_arg6
  let main_cst_6 : FVec F S_ .f32 := constant S_ .f32 0x7F800000#32
  let main_v20 : FVec F S1044x128 .f32 := broadcastInDim S1044x128 ![] bcast_S_S1044x128 main_cst_6
  let main_v21 : IVec S1044x128 1 := cmpf .olt main_v19 main_v20
  let main_c_7 : IVec S_ 1 := constantI S_ 1 1#1
  let main_v22 : IVec S_ 1 := (fun x v => Host.reduce IntOp.andi x v reducesTo_S1044x128_S_d0_1 h_S_) main_v21 main_c_7
  let main_v23 : IVec S_ 1 := andi main_v18 main_v22
  let main_v24 : FVec F S128x64 .f32 := Host.absf main_arg7
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_v33

def fn {F : FTy → Type} [FloatOps F] (main_arg0 : FVec F S70000x1044 .f32) (main_arg1 : IVec S2x500000 32) (main_arg2 : IVec S2x500000 32) (main_arg3 : FVec F S500000x1 .f32) (main_arg4 : FVec F S1044x128 .f32) (main_arg5 : FVec F S128 .f32) (main_arg6 : FVec F S1044x128 .f32) (main_arg7 : FVec F S128x64 .f32) (main_arg8 : FVec F S64 .f32) (main_arg9 : FVec F S128x64 .f32) : IVec S_ 1 :=
  let main_v0 : FVec F S70000x1044 .f32 := Host.absf main_arg0
  let main_cst : FVec F S_ .f32 := constant S_ .f32 0x7F800000#32
  let main_v1 : FVec F S70000x1044 .f32 := broadcastInDim S70000x1044 ![] bcast_S_S70000x1044 main_cst
  let main_v2 : IVec S70000x1044 1 := cmpf .olt main_v0 main_v1
  let main_c : IVec S_ 1 := constantI S_ 1 1#1
  let main_v3 : IVec S_ 1 := (fun x v => Host.reduce IntOp.andi x v reducesTo_S70000x1044_S_d0_1 h_S_) main_v2 main_c
  let main_v4 : FVec F S500000x1 .f32 := Host.absf main_arg3
  let main_cst_0 : FVec F S_ .f32 := constant S_ .f32 0x7F800000#32
  let main_v5 : FVec F S500000x1 .f32 := broadcastInDim S500000x1 ![] bcast_S_S500000x1 main_cst_0
  let main_v6 : IVec S500000x1 1 := cmpf .olt main_v4 main_v5
  let main_c_1 : IVec S_ 1 := constantI S_ 1 1#1
  let main_v7 : IVec S_ 1 := (fun x v => Host.reduce IntOp.andi x v reducesTo_S500000x1_S_d0_1 h_S_) main_v6 main_c_1
  let main_v8 : IVec S_ 1 := andi main_v3 main_v7
  let main_v9 : FVec F S1044x128 .f32 := Host.absf main_arg4
  let main_cst_2 : FVec F S_ .f32 := constant S_ .f32 0x7F800000#32
  let main_v10 : FVec F S1044x128 .f32 := broadcastInDim S1044x128 ![] bcast_S_S1044x128 main_cst_2
  let main_v11 : IVec S1044x128 1 := cmpf .olt main_v9 main_v10
  let main_c_3 : IVec S_ 1 := constantI S_ 1 1#1
  let main_v12 : IVec S_ 1 := (fun x v => Host.reduce IntOp.andi x v reducesTo_S1044x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_v13 main_v16
-- ==== Kernel.lean ====
abbrev S70000x1044 : Shape := ⟨2, ![70000, 1044]⟩
abbrev S2x500000 : Shape := ⟨2, ![2, 500000]⟩
abbrev S500000x1 : Shape := ⟨2, ![500000, 1]⟩
abbrev S1044x128 : Shape := ⟨2, ![1044, 128]⟩
abbrev S128 : Shape := ⟨1, ![128]⟩
abbrev S128x64 : Shape := ⟨2, ![128, 64]⟩
abbrev S64 : Shape := ⟨1, ![64]⟩
abbrev S1x500000 : Shape := ⟨2, ![1, 500000]⟩
abbrev S500000 : Shape := ⟨1, ![500000]⟩
abbrev S_ : Shape := ⟨0, ![]⟩
abbrev S70000 : Shape := ⟨1, ![70000]⟩
abbrev S70000x1 : Shape := ⟨2, ![70000, 1]⟩
abbrev S1044x256 : Shape := ⟨2, ![1044, 256]⟩
abbrev S70000x128 : Shape := ⟨2, ![70000, 128]⟩
abbrev S2000x1044 : Shape := ⟨2, ![2000, 1044]⟩
abbrev S2000x128 : Shape := ⟨2, ![2000, 128]⟩
abbrev S2000x256 : Shape := ⟨2, ![2000, 256]⟩
abbrev S500000x128 : Shape := ⟨2, ![500000, 128]⟩
abbrev S2000x1 : Shape := ⟨2, ![2000, 1]⟩
abbrev S1x128 : Shape := ⟨2, ![1, 128]⟩
abbrev S128x128 : Shape := ⟨2, ![128, 128]⟩
abbrev S70000x64 : Shape := ⟨2, ![70000, 64]⟩
abbrev S2000x64 : Shape := ⟨2, ![2000, 64]⟩
abbrev S500000x64 : Shape := ⟨2, ![500000, 64]⟩
abbrev S1x64 : Shape := ⟨2, ![1, 64]⟩

abbrev nBuf : Space → Nat
  | .hbm => 61
  | .vmem => 32
  | .smem => 0
  | _ => 0

abbrev bufTy : (tb : Table) → Fin (tcTables nBuf tb) → BufTy
  | .hbm, ⟨0, _⟩ => ⟨S70000x1044, .f32⟩
  | .hbm, ⟨1, _⟩ => ⟨S2x500000, .i32⟩
  | .hbm, ⟨2, _⟩ => ⟨S2x500000, .i32⟩
  | .hbm, ⟨3, _⟩ => ⟨S500000x1, .f32⟩
  | .hbm, ⟨4, _⟩ => ⟨S1044x128, .f32⟩
  | .hbm, ⟨5, _⟩ => ⟨S128, .f32⟩
  | .hbm, ⟨6, _⟩ => ⟨S1044x128, .f32⟩
  | .hbm, ⟨7, _⟩ => ⟨S128x64, .f32⟩
  | .hbm, ⟨8, _⟩ => ⟨S64, .f32⟩
  | .hbm, ⟨9, _⟩ => ⟨S128x64, .f32⟩
  | .hbm, ⟨10, _⟩ => ⟨S1x500000, .i32⟩
  | .hbm, ⟨11, _⟩ => ⟨S500000, .i32⟩
  | .hbm, ⟨12, _⟩ => ⟨S1x500000, .i32⟩
  | .hbm, ⟨13, _⟩ => ⟨S500000, .i32⟩
  | .hbm, ⟨14, _⟩ => ⟨S_, .f32⟩
  | .hbm, ⟨15, _⟩ => ⟨S500000, .f32⟩
  | .hbm, ⟨16, _⟩ => ⟨S_, .f32⟩
  | .hbm, ⟨17, _⟩ => ⟨S70000, .f32⟩
  | .hbm, ⟨18, _⟩ => ⟨S500000x1, .i32⟩
  | .hbm, ⟨19, _⟩ => ⟨S70000, .f32⟩
  | .hbm, ⟨20, _⟩ => ⟨S_, .f32⟩
  | .hbm, ⟨21, _⟩ => ⟨S70000, .f32⟩
  | .hbm, ⟨22, _⟩ => ⟨S70000, .f32⟩
  | .hbm, ⟨23, _⟩ => ⟨S_, .f32⟩
  | .hbm, ⟨24, _⟩ => ⟨S70000, .f32⟩
  | .hbm, ⟨25, _⟩ => ⟨S70000, .f32⟩
  | .hbm, ⟨26, _⟩ => ⟨S70000x1, .f32⟩
  | .hbm, ⟨27, _⟩ => ⟨S1044x256, .f32⟩
  | .hbm, ⟨28, _⟩ => ⟨S70000x128, .f32⟩
  | .hbm, ⟨29, _⟩ => ⟨S70000x128, .f32⟩
  | .hbm, ⟨30, _⟩ => ⟨S_, .i32⟩
  | .hbm, ⟨31, _⟩ => ⟨S500000, .i32⟩
  | .hbm, ⟨32, _⟩ => ⟨S500000, .i1⟩
  | .hbm, ⟨33, _⟩ => ⟨S_, .i32⟩
  | .hbm, ⟨34, _⟩ => ⟨S500000, .i32⟩
  | .hbm, ⟨35, _⟩ => ⟨S500000, .i32⟩
  | .hbm, ⟨36, _⟩ => ⟨S500000, .i32⟩
  | .hbm, ⟨37, _⟩ => ⟨S500000x1, .i32⟩
  | .hbm, ⟨38, _⟩ => ⟨S500000x128, .f32⟩
  | .hbm, ⟨39, _⟩ => ⟨S_, .f32⟩
  | .hbm, ⟨40, _⟩ => ⟨S70000x128, .f32⟩
  | .hbm, ⟨41, _⟩ => ⟨S500000x1, .i32⟩
  | .hbm, ⟨42, _⟩ => ⟨S70000x128, .f32⟩
  | .hbm, ⟨43, _⟩ => ⟨S70000x128, .bf16⟩
  | .hbm, ⟨44, _⟩ => ⟨S128x128, .f32⟩
  | .hbm, ⟨45, _⟩ => ⟨S70000x64, .f32⟩
  | .hbm, ⟨46, _⟩ => ⟨S70000x64, .f32⟩
  | .hbm, ⟨47, _⟩ => ⟨S_, .i32⟩
  | .hbm, ⟨48, _⟩ => ⟨S500000, .i32⟩
  | .hbm, ⟨49, _⟩ => ⟨S500000, .i1⟩
  | .hbm, ⟨50, _⟩ => ⟨S_, .i32⟩
  | .hbm, ⟨51, _⟩ => ⟨S500000, .i32⟩
  | .hbm, ⟨52, _⟩ => ⟨S500000, .i32⟩
  | .hbm, ⟨53, _⟩ => ⟨S500000, .i32⟩
  | .hbm, ⟨54, _⟩ => ⟨S500000x1, .i32⟩
  | .hbm, ⟨55, _⟩ => ⟨S500000x64, .f32⟩
  | .hbm, ⟨56, _⟩ => ⟨S_, .f32⟩
  | .hbm, ⟨57, _⟩ => ⟨S70000x64, .f32⟩
  | .hbm, ⟨58, _⟩ => ⟨S500000x1, .i32⟩
  | .hbm, ⟨59, _⟩ => ⟨S70000x64, .f32⟩
  | .hbm, ⟨60, _⟩ => ⟨S70000x64, .f32⟩
  | .local _ .vmem, ⟨0, _⟩ => ⟨S2000x1044, .f32⟩
  | .local _ .vmem, ⟨1, _⟩ => ⟨S2000x1044, .f32⟩
  | .local _ .vmem, ⟨2, _⟩ => ⟨S1044x256, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x1, .f32⟩
  | .local _ .vmem, ⟨10, _⟩ => ⟨S2000x1, .f32⟩
  | .local _ .vmem, ⟨11, _⟩ => ⟨S2000x128, .f32⟩
  | .local _ .vmem, ⟨12, _⟩ => ⟨S2000x128, .f32⟩
  | .local _ .vmem, ⟨13, _⟩ => ⟨S128, .f32⟩
  | .local _ .vmem, ⟨14, _⟩ => ⟨S2000x128, .bf16⟩
  | .local _ .vmem, ⟨15, _⟩ => ⟨S2000x128, .bf16⟩
  | .local _ .vmem, ⟨16, _⟩ => ⟨S2000x128, .bf16⟩
  | .local _ .vmem, ⟨17, _⟩ => ⟨S2000x128, .bf16⟩
  | .local _ .vmem, ⟨18, _⟩ => ⟨S128x128, .f32⟩
  | .local _ .vmem, ⟨19, _⟩ => ⟨S2000x64, .f32⟩
  | .local _ .vmem, ⟨20, _⟩ => ⟨S2000x64, .f32⟩
  | .local _ .vmem, ⟨21, _⟩ => ⟨S2000x64, .f32⟩
  | .local _ .vmem, ⟨22, _⟩ => ⟨S2000x64, .f32⟩
  | .local _ .vmem, ⟨23, _⟩ => ⟨S2000x64, .f32⟩
  | .local _ .vmem, ⟨24, _⟩ => ⟨S2000x64, .f32⟩
  | .local _ .vmem, ⟨25, _⟩ => ⟨S2000x1, .f32⟩
  | .local _ .vmem, ⟨26, _⟩ => ⟨S2000x1, .f32⟩
  | .local _ .vmem, ⟨27, _⟩ => ⟨S2000x64, .f32⟩
  | .local _ .vmem, ⟨28, _⟩ => ⟨S2000x64, .f32⟩
  | .local _ .vmem, ⟨29, _⟩ => ⟨S64, .f32⟩
  | .local _ .vmem, ⟨30, _⟩ => ⟨S2000x64, .f32⟩
  | .local _ .vmem, ⟨31, _⟩ => ⟨S2000x64, .f32⟩
  | _, _ => ⟨S70000x1044, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14_0 : Ref sig .tc := ⟨.hbm, 28, rfl⟩
abbrev main_v14_1 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_4 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27_0 : Ref sig .tc := ⟨.hbm, 45, rfl⟩
abbrev main_v27_1 : Ref sig .tc := ⟨.hbm, 46, rfl⟩
abbrev main_c_5 : Ref sig .tc := ⟨.hbm, 47, rfl⟩
abbrev main_v28 : Ref sig .tc := ⟨.hbm, 48, rfl⟩
abbrev main_v29 : Ref sig .tc := ⟨.hbm, 49, rfl⟩
abbrev main_c_6 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_7 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg3_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg2_1 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg4_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem2_1 : DmaSem sig := 20
abbrev cc2_sem3_0 : DmaSem sig := 21
abbrev cc2_sem3_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem2_1 : DmaSem sig := 28
abbrev cc3_sem3_0 : DmaSem sig := 29
abbrev cc3_sem4_0 : DmaSem sig := 30
abbrev cc3_sem4_1 : DmaSem sig := 31

abbrev nD : Nat := 1
abbrev τ : Topo := Topo.v7x

variable {F : FTy → Type} [FloatOps F]

abbrev grid0 : Pipeline.Grid := ⟨1, ![35], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x1044 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1044x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![35], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![35], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![35], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S_S70000 : S_.BroadcastsInDim S70000 (![] : Fin 0 → Fin S70000.rank)
  bcast_S500000_S500000x1_0 : S500000.BroadcastsInDim S500000x1 (![0] : Fin 1 → Fin S500000x1.rank)
  bcast_S70000_S70000x1_0 : S70000.BroadcastsInDim S70000x1 (![0] : Fin 1 → Fin S70000x1.rank)
  concatenates_S1044x128_S1044x128_S1044x256_d1 : Shape.Concatenates [S1044x128, S1044x128] S1044x256 1
  inb_S2000x1044_S2000x1044_0_0 : ∀ a, (![0, 0] : Fin 2 → Nat) a + S2000x1044.size a ≤ S2000x1044.size a
  h_S2000x1044 : 0 < S2000x1044.numel
  bitsLt_bf16_f32 : FTy.bits .bf16 < FTy.bits .f32
  inb_S1044x256_S1044x256_0_0 : ∀ a, (![0, 0] : Fin 2 → Nat) a + S1044x256.size a ≤ S1044x256.size a
  h_S1044x256 : 0 < S1044x256.numel
  shapeCasts_S1044x256_S1044x256 : S1044x256.ShapeCasts S1044x256
  slices_S2000x256_o0_0_S2000x128 : S2000x256.Slices ![0, 0] S2000x128
  inb_S2000x128_S2000x128_0_0 : ∀ a, (![0, 0] : Fin 2 → Nat) a + S2000x128.size a ≤ S2000x128.size a
  h_S2000x128 : 0 < S2000x128.numel
  slices_S2000x256_o0_128_S2000x128 : S2000x256.Slices ![0, 128] S2000x128
  bcast_S_S70000x128 : S_.BroadcastsInDim S70000x128 (![] : Fin 0 → Fin S70000x128.rank)
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  packedbf16_S2000x128_S2000x128_0_0 : (Rect.unit (s := S2000x128) ![0, 0] S2000x128.size inb_S2000x128_S2000x128_0_0).PackedRows (EltTy.packing .bf16)
  concatenates_S128x64_S128x64_S128x128_d1 : Shape.Concatenates [S128x64, S128x64] S128x128 1
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S2000x128_o0_0_S2000x64 : S2000x128.Slices ![0, 0] S2000x64
  inb_S2000x64_S2000x64_0_0 : ∀ a, (![0, 0] : Fin 2 → Nat) a + S2000x64.size a ≤ S2000x64.size a
  h_S2000x64 : 0 < S2000x64.numel
  slices_S2000x128_o0_64_S2000x64 : S2000x128.Slices ![0, 64] S2000x64
  bcast_S_S70000x64 : S_.BroadcastsInDim S70000x64 (![] : Fin 0 → Fin S70000x64.rank)
  shapeCasts_S2000x64_S2000x64 : S2000x64.ShapeCasts S2000x64
  broadcasts_S2000x1_S2000x64 : S2000x1.Broadcasts S2000x64
  inb_S64_S64_0 : ∀ a, (![0] : Fin 1 → Nat) a + S64.size a ≤ S64.size a
  h_S64 : 0 < S64.numel
  shapeCasts_S64_S1x64 : S64.ShapeCasts S1x64
  broadcasts_S1x64_S2000x64 : S1x64.Broadcasts S2000x64
  scatter_S70000_S500000x1_S500000_n_0_0_1_wf : ScatterDims.WF S70000 S500000x1 S500000 [] [0] [0] 1
  dot_S2000x1044_S1044x256_S2000x256_1_0_0_1_n_n_wf : DotDims.WF S2000x1044 S1044x256 S2000x256 [1] [0] [0] [1] [] []
  gather_S70000x128_S500000x1_S500000x128_1_0_n_n_0_1_1128_wf : GatherDims.WF S70000x128 S500000x1 S500000x128 [1] [0] [] [0] [] 1 ![1, 128]
  scatter_S70000x128_S500000x1_S500000x128_1_0_0_1_wf : ScatterDims.WF S70000x128 S500000x1 S500000x128 [1] [0] [0] 1
  dot_S2000x128_S128x128_S2000x128_1_0_0_1_n_n_wf : DotDims.WF S2000x128 S128x128 S2000x128 [1] [0] [0] [1] [] []
  gather_S70000x64_S500000x1_S500000x64_1_0_n_n_0_1_164_wf : GatherDims.WF S70000x64 S500000x1 S500000x64 [1] [0] [] [0] [] 1 ![1, 64]
  scatter_S70000x64_S500000x1_S500000x64_1_0_0_1_wf : ScatterDims.WF S70000x64 S500000x1 S500000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1044.size a ≤ S70000x1044.size a
  hwx0_0 : ∀ i : grid0.Coords, EltTy.bits .f32 = 32 ∨ (Rect.block (s := S70000x1044) S2000x1044.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1044x256.size a ≤ S1044x256.size a
  hwx0_1 : ∀ i : grid0.Coords, EltTy.bits .f32 = 32 ∨ (Rect.block (s := S1044x256) S1044x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S70000x128.size a
  hwx0_2 : ∀ i : grid0.Coords, EltTy.bits .f32 = 32 ∨ (Rect.block (s := S70000x128) S2000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S70000x128.size a
  hwx0_3 : ∀ i : grid0.Coords, EltTy.bits .f32 = 32 ∨ (Rect.block (s := S70000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S70000x128.size a
  hwx1_0 : ∀ i : grid1.Coords, EltTy.bits .f32 = 32 ∨ (Rect.block (s := S70000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S70000x1.size a
  hwx1_1 : ∀ i : grid1.Coords, EltTy.bits .f32 = 32 ∨ (Rect.block (s := S70000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S70000x128.size a
  hwx1_2 : ∀ i : grid1.Coords, EltTy.bits .f32 = 32 ∨ (Rect.block (s := S70000x128) S2000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S70000x128.size a
  hwx1_4 : ∀ i : grid1.Coords, EltTy.bits .bf16 = 32 ∨ (Rect.block (s := S70000x128) S2000x128.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S70000x128.size a
  hwx2_0 : ∀ i : grid2.Coords, EltTy.bits .bf16 = 32 ∨ (Rect.block (s := S70000x128) S2000x128.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S70000x64.size a
  hwx2_2 : ∀ i : grid2.Coords, EltTy.bits .f32 = 32 ∨ (Rect.block (s := S70000x64) S2000x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x64.size a ≤ S70000x64.size a
  hwx2_3 : ∀ i : grid2.Coords, EltTy.bits .f32 = 32 ∨ (Rect.block (s := S70000x64) S2000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S70000x64.size a
  hwx3_0 : ∀ i : grid3.Coords, EltTy.bits .f32 = 32 ∨ (Rect.block (s := S70000x64) S2000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S70000x1.size a
  hwx3_1 : ∀ i : grid3.Coords, EltTy.bits .f32 = 32 ∨ (Rect.block (s := S70000x1) S2000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x64.size a ≤ S70000x64.size a
  hwx3_2 : ∀ i : grid3.Coords, EltTy.bits .f32 = 32 ∨ (Rect.block (s := S70000x64) S2000x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64.size a ≤ S64.size a
  hwx3_3 : ∀ i : grid3.Coords, EltTy.bits .f32 = 32 ∨ (Rect.block (s := S64) S64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x64.size a ≤ S70000x64.size a
  hwx3_4 : ∀ i : grid3.Coords, EltTy.bits .f32 = 32 ∨ (Rect.block (s := S70000x64) S2000x64.size (cc3_transform_4 i) (hinb3_4 i)).WholeWords (EltTy.packing .f32)

variable [Facts₀]

def scatter_S70000_S500000x1_S500000_n_0_0_1 : ScatterDims S70000 S500000x1 S500000 where
  updateWindowDims := []
  insertedWindowDims := [0]
  scatterDimsToOperandDims := [0]
  indexVectorDim := 1
  wf := scatter_S70000_S500000x1_S500000_n_0_0_1_wf
def dot_S2000x1044_S1044x256_S2000x256_1_0_0_1_n_n : DotDims S2000x1044 S1044x256 S2000x256 where
  lhsContracting := [1]
  rhsContracting := [0]
  lhsNonContracting := [0]
  rhsNonContracting := [1]
  lhsBatch := []
  rhsBatch := []
  wf := dot_S2000x1044_S1044x256_S2000x256_1_0_0_1_n_n_wf
def gather_S70000x128_S500000x1_S500000x128_1_0_n_n_0_1_1128 : GatherDims S70000x128 S500000x1 S500000x128 where
  offsetDims := [1]
  collapsedSliceDims := [0]
  operandBatchingDims := []
  startIndicesBatchingDims := []
  startIndexMap := [0]
  indexVectorDim := 1
  sliceSizes := ![1, 128]
  wf := gather_S70000x128_S500000x1_S500000x128_1_0_n_n_0_1_1128_wf
def scatter_S70000x128_S500000x1_S500000x128_1_0_0_1 : ScatterDims S70000x128 S500000x1 S500000x128 where
  updateWindowDims := [1]
  insertedWindowDims := [0]
  scatterDimsToOperandDims := [0]
  indexVectorDim := 1
  wf := scatter_S70000x128_S500000x1_S500000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S70000x64_S500000x1_S500000x64_1_0_n_n_0_1_164 : GatherDims S70000x64 S500000x1 S500000x64 where
  offsetDims := [1]
  collapsedSliceDims := [0]
  operandBatchingDims := []
  startIndicesBatchingDims := []
  startIndexMap := [0]
  indexVectorDim := 1
  sliceSizes := ![1, 64]
  wf := gather_S70000x64_S500000x1_S500000x64_1_0_n_n_0_1_164_wf
def scatter_S70000x64_S500000x1_S500000x64_1_0_0_1 : ScatterDims S70000x64 S500000x1 S500000x64 where
  updateWindowDims := [1]
  insertedWindowDims := [0]
  scatterDimsToOperandDims := [0]
  indexVectorDim := 1
  wf := scatter_S70000x64_S500000x1_S500000x64_1_0_0_1_wf

abbrev win0_0 : Pipeline.Window sig grid0 :=
  Pipeline.Window.ofSpec (Memref.whole main_arg0) S2000x1044.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S1044x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14_0) S2000x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14_1) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v24) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14_1) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v25) S2000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v25) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v26) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v27_0) S2000x64.size cc2_transform_2 reads2_2 true false 2 stage2_2 sem2_2
    hrank2 hreads2_2 hinb2_2 nbuf2_2 (Memref.isWhole_whole _) hwx2_2 hstage2_2

abbrev win2_3 : Pipeline.Window sig grid2 :=
  Pipeline.Window.ofSpec (Memref.whole main_v27_1) S2000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v37) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v12) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v27_1) S2000x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg8) S64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v38) S2000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S70000x1044 : Shape := ⟨2, ![70000, 1044]⟩
abbrev S2x500000 : Shape := ⟨2, ![2, 500000]⟩
abbrev S500000x1 : Shape := ⟨2, ![500000, 1]⟩
abbrev S1044x128 : Shape := ⟨2, ![1044, 128]⟩
abbrev S128 : Shape := ⟨1, ![128]⟩
abbrev S128x64 : Shape := ⟨2, ![128, 64]⟩
abbrev S64 : Shape := ⟨1, ![64]⟩
abbrev S1x500000 : Shape := ⟨2, ![1, 500000]⟩
abbrev S500000 : Shape := ⟨1, ![500000]⟩
abbrev S70000x128 : Shape := ⟨2, ![70000, 128]⟩
abbrev S_ : Shape := ⟨0, ![]⟩
abbrev S500000x128 : Shape := ⟨2, ![500000, 128]⟩
abbrev S70000 : Shape := ⟨1, ![70000]⟩
abbrev S70000x1 : Shape := ⟨2, ![70000, 1]⟩
abbrev S1x128 : Shape := ⟨2, ![1, 128]⟩
abbrev S70000x64 : Shape := ⟨2, ![70000, 64]⟩
abbrev S500000x64 : Shape := ⟨2, ![500000, 64]⟩
abbrev S1x64 : Shape := ⟨2, ![1, 64]⟩

abbrev nBuf : Space → Nat
  | .hbm => 79
  | .vmem => 0
  | .smem => 0
  | _ => 0

abbrev bufTy : (tb : Table) → Fin (tcTables nBuf tb) → BufTy
  | .hbm, ⟨0, _⟩ => ⟨S70000x1044, .f32⟩
  | .hbm, ⟨1, _⟩ => ⟨S2x500000, .i32⟩
  | .hbm, ⟨2, _⟩ => ⟨S2x500000, .i32⟩
  | .hbm, ⟨3, _⟩ => ⟨S500000x1, .f32⟩
  | .hbm, ⟨4, _⟩ => ⟨S1044x128, .f32⟩
  | .hbm, ⟨5, _⟩ => ⟨S128, .f32⟩
  | .hbm, ⟨6, _⟩ => ⟨S1044x128, .f32⟩
  | .hbm, ⟨7, _⟩ => ⟨S128x64, .f32⟩
  | .hbm, ⟨8, _⟩ => ⟨S64, .f32⟩
  | .hbm, ⟨9, _⟩ => ⟨S128x64, .f32⟩
  | .hbm, ⟨10, _⟩ => ⟨S1x500000, .i32⟩
  | .hbm, ⟨11, _⟩ => ⟨S500000, .i32⟩
  | .hbm, ⟨12, _⟩ => ⟨S1x500000, .i32⟩
  | .hbm, ⟨13, _⟩ => ⟨S500000, .i32⟩
  | .hbm, ⟨14, _⟩ => ⟨S70000x128, .f32⟩
  | .hbm, ⟨15, _⟩ => ⟨S_, .i32⟩
  | .hbm, ⟨16, _⟩ => ⟨S500000, .i32⟩
  | .hbm, ⟨17, _⟩ => ⟨S500000, .i1⟩
  | .hbm, ⟨18, _⟩ => ⟨S_, .i32⟩
  | .hbm, ⟨19, _⟩ => ⟨S500000, .i32⟩
  | .hbm, ⟨20, _⟩ => ⟨S500000, .i32⟩
  | .hbm, ⟨21, _⟩ => ⟨S500000, .i32⟩
  | .hbm, ⟨22, _⟩ => ⟨S500000x1, .i32⟩
  | .hbm, ⟨23, _⟩ => ⟨S500000x128, .f32⟩
  | .hbm, ⟨24, _⟩ => ⟨S_, .f32⟩
  | .hbm, ⟨25, _⟩ => ⟨S70000x128, .f32⟩
  | .hbm, ⟨26, _⟩ => ⟨S500000x1, .i32⟩
  | .hbm, ⟨27, _⟩ => ⟨S70000x128, .f32⟩
  | .hbm, ⟨28, _⟩ => ⟨S_, .f32⟩
  | .hbm, ⟨29, _⟩ => ⟨S500000, .f32⟩
  | .hbm, ⟨30, _⟩ => ⟨S_, .f32⟩
  | .hbm, ⟨31, _⟩ => ⟨S70000, .f32⟩
  | .hbm, ⟨32, _⟩ => ⟨S500000x1, .i32⟩
  | .hbm, ⟨33, _⟩ => ⟨S70000, .f32⟩
  | .hbm, ⟨34, _⟩ => ⟨S_, .f32⟩
  | .hbm, ⟨35, _⟩ => ⟨S70000, .f32⟩
  | .hbm, ⟨36, _⟩ => ⟨S70000, .f32⟩
  | .hbm, ⟨37, _⟩ => ⟨S70000x1, .f32⟩
  | .hbm, ⟨38, _⟩ => ⟨S70000x128, .f32⟩
  | .hbm, ⟨39, _⟩ => ⟨S70000x128, .f32⟩
  | .hbm, ⟨40, _⟩ => ⟨S1x128, .f32⟩
  | .hbm, ⟨41, _⟩ => ⟨S70000x128, .f32⟩
  | .hbm, ⟨42, _⟩ => ⟨S70000x128, .f32⟩
  | .hbm, ⟨43, _⟩ => ⟨S70000x128, .f32⟩
  | .hbm, ⟨44, _⟩ => ⟨S70000x128, .f32⟩
  | .hbm, ⟨45, _⟩ => ⟨S_, .f32⟩
  | .hbm, ⟨46, _⟩ => ⟨S70000x128, .f32⟩
  | .hbm, ⟨47, _⟩ => ⟨S70000x128, .f32⟩
  | .hbm, ⟨48, _⟩ => ⟨S70000x64, .f32⟩
  | .hbm, ⟨49, _⟩ => ⟨S_, .i32⟩
  | .hbm, ⟨50, _⟩ => ⟨S500000, .i32⟩
  | .hbm, ⟨51, _⟩ => ⟨S500000, .i1⟩
  | .hbm, ⟨52, _⟩ => ⟨S_, .i32⟩
  | .hbm, ⟨53, _⟩ => ⟨S500000, .i32⟩
  | .hbm, ⟨54, _⟩ => ⟨S500000, .i32⟩
  | .hbm, ⟨55, _⟩ => ⟨S500000, .i32⟩
  | .hbm, ⟨56, _⟩ => ⟨S500000x1, .i32⟩
  | .hbm, ⟨57, _⟩ => ⟨S500000x64, .f32⟩
  | .hbm, ⟨58, _⟩ => ⟨S_, .f32⟩
  | .hbm, ⟨59, _⟩ => ⟨S70000x64, .f32⟩
  | .hbm, ⟨60, _⟩ => ⟨S500000x1, .i32⟩
  | .hbm, ⟨61, _⟩ => ⟨S70000x64, .f32⟩
  | .hbm, ⟨62, _⟩ => ⟨S_, .f32⟩
  | .hbm, ⟨63, _⟩ => ⟨S500000, .f32⟩
  | .hbm, ⟨64, _⟩ => ⟨S_, .f32⟩
  | .hbm, ⟨65, _⟩ => ⟨S70000, .f32⟩
  | .hbm, ⟨66, _⟩ => ⟨S500000x1, .i32⟩
  | .hbm, ⟨67, _⟩ => ⟨S70000, .f32⟩
  | .hbm, ⟨68, _⟩ => ⟨S_, .f32⟩
  | .hbm, ⟨69, _⟩ => ⟨S70000, .f32⟩
  | .hbm, ⟨70, _⟩ => ⟨S70000, .f32⟩
  | .hbm, ⟨71, _⟩ => ⟨S70000x1, .f32⟩
  | .hbm, ⟨72, _⟩ => ⟨S70000x64, .f32⟩
  | .hbm, ⟨73, _⟩ => ⟨S70000x64, .f32⟩
  | .hbm, ⟨74, _⟩ => ⟨S1x64, .f32⟩
  | .hbm, ⟨75, _⟩ => ⟨S70000x64, .f32⟩
  | .hbm, ⟨76, _⟩ => ⟨S70000x64, .f32⟩
  | .hbm, ⟨77, _⟩ => ⟨S70000x64, .f32⟩
  | .hbm, ⟨78, _⟩ => ⟨S70000x64, .f32⟩
  | _, _ => ⟨S70000x1044, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c : Ref sig .tc := ⟨.hbm, 15, rfl⟩
abbrev main_v5 : Ref sig .tc := ⟨.hbm, 16, rfl⟩
abbrev main_v6 : Ref sig .tc := ⟨.hbm, 17, rfl⟩
abbrev main_c_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_1 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_call0_cst : Ref sig .tc := ⟨.hbm, 45, rfl⟩
abbrev main_call0_v0 : Ref sig .tc := ⟨.hbm, 46, rfl⟩
abbrev main_v29 : Ref sig .tc := ⟨.hbm, 47, rfl⟩
abbrev main_v30 : Ref sig .tc := ⟨.hbm, 48, rfl⟩
abbrev main_c_4 : Ref sig .tc := ⟨.hbm, 49, rfl⟩
abbrev main_v31 : Ref sig .tc := ⟨.hbm, 50, rfl⟩
abbrev main_v32 : Ref sig .tc := ⟨.hbm, 51, rfl⟩
abbrev main_c_5 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_6 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_7 : Ref sig .tc := ⟨.hbm, 62, rfl⟩
abbrev main_v41 : Ref sig .tc := ⟨.hbm, 63, rfl⟩
abbrev main_cst_8 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_9 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  bcast_S_S70000x128 : S_.BroadcastsInDim S70000x128 (![] : Fin 0 → Fin S70000x128.rank)
  bcast_S_S70000 : S_.BroadcastsInDim S70000 (![] : Fin 0 → Fin S70000.rank)
  bcast_S70000_S70000x1_0 : S70000.BroadcastsInDim S70000x1 (![0] : Fin 1 → Fin S70000x1.rank)
  bcast_S70000x1_S70000x128_0_1 : S70000x1.BroadcastsInDim S70000x128 (![0, 1] : Fin 2 → Fin S70000x128.rank)
  bcast_S128_S1x128_1 : S128.BroadcastsInDim S1x128 (![1] : Fin 1 → Fin S1x128.rank)
  bcast_S1x128_S70000x128_0_1 : S1x128.BroadcastsInDim S70000x128 (![0, 1] : Fin 2 → Fin S70000x128.rank)
  bcast_S_S70000x64 : S_.BroadcastsInDim S70000x64 (![] : Fin 0 → Fin S70000x64.rank)
  bcast_S70000x1_S70000x64_0_1 : S70000x1.BroadcastsInDim S70000x64 (![0, 1] : Fin 2 → Fin S70000x64.rank)
  bcast_S64_S1x64_1 : S64.BroadcastsInDim S1x64 (![1] : Fin 1 → Fin S1x64.rank)
  bcast_S1x64_S70000x64_0_1 : S1x64.BroadcastsInDim S70000x64 (![0, 1] : Fin 2 → Fin S70000x64.rank)
  dot_S70000x1044_S1044x128_S70000x128_1_0_0_1_n_n_wf : DotDims.WF S70000x1044 S1044x128 S70000x128 [1] [0] [0] [1] [] []
  gather_S70000x128_S500000x1_S500000x128_1_0_n_n_0_1_1128_wf : GatherDims.WF S70000x128 S500000x1 S500000x128 [1] [0] [] [0] [] 1 ![1, 128]
  scatter_S70000x128_S500000x1_S500000x128_1_0_0_1_wf : ScatterDims.WF S70000x128 S500000x1 S500000x128 [1] [0] [0] 1
  scatter_S70000_S500000x1_S500000_n_0_0_1_wf : ScatterDims.WF S70000 S500000x1 S500000 [] [0] [0] 1
  dot_S70000x128_S128x64_S70000x64_1_0_0_1_n_n_wf : DotDims.WF S70000x128 S128x64 S70000x64 [1] [0] [0] [1] [] []
  gather_S70000x64_S500000x1_S500000x64_1_0_n_n_0_1_164_wf : GatherDims.WF S70000x64 S500000x1 S500000x64 [1] [0] [] [0] [] 1 ![1, 64]
  scatter_S70000x64_S500000x1_S500000x64_1_0_0_1_wf : ScatterDims.WF S70000x64 S500000x1 S500000x64 [1] [0] [0] 1

variable [Facts₀]

def dot_S70000x1044_S1044x128_S70000x128_1_0_0_1_n_n : DotDims S70000x1044 S1044x128 S70000x128 where
  lhsContracting := [1]
  rhsContracting := [0]
  lhsNonContracting := [0]
  rhsNonContracting := [1]
  lhsBatch := []
  rhsBatch := []
  wf := dot_S70000x1044_S1044x128_S70000x128_1_0_0_1_n_n_wf
def gather_S70000x128_S500000x1_S500000x128_1_0_n_n_0_1_1128 : GatherDims S70000x128 S500000x1 S500000x128 where
  offsetDims := [1]
  collapsedSliceDims := [0]
  operandBatchingDims := []
  startIndicesBatchingDims := []
  startIndexMap := [0]
  indexVectorDim := 1
  sliceSizes := ![1, 128]
  wf := gather_S70000x128_S500000x1_S500000x128_1_0_n_n_0_1_1128_wf
def scatter_S70000x128_S500000x1_S500000x128_1_0_0_1 : ScatterDims S70000x128 S500000x1 S500000x128 where
  updateWindowDims := [1]
  insertedWindowDims := [0]
  scatterDimsToOperandDims := [0]
  indexVectorDim := 1
  wf := scatter_S70000x128_S500000x1_S500000x128_1_0_0_1_wf
def scatter_S70000_S500000x1_S500000_n_0_0_1 : ScatterDims S70000 S500000x1 S500000 where
  updateWindowDims := []
  insertedWindowDims := [0]
  scatterDimsToOperandDims := [0]
  indexVectorDim := 1
  wf := scatter_S70000_S500000x1_S500000_n_0_0_1_wf
def dot_S70000x128_S128x64_S70000x64_1_0_0_1_n_n : DotDims S70000x128 S128x64 S70000x64 where
  lhsContracting := [1]
  rhsContracting := [0]
  lhsNonContracting := [0]
  rhsNonContracting := [1]
  lhsBatch := []
  rhsBatch := []
  wf := dot_S70000x128_S128x64_S70000x64_1_0_0_1_n_n_wf
def gather_S70000x64_S500000x1_S500000x64_1_0_n_n_0_1_164 : GatherDims S70000x64 S500000x1 S500000x64 where
  offsetDims := [1]
  collapsedSliceDims := [0]
  operandBatchingDims := []
  startIndicesBatchingDims := []
  startIndexMap := [0]
  indexVectorDim := 1
  sliceSizes := ![1, 64]
  wf := gather_S70000x64_S500000x1_S500000x64_1_0_n_n_0_1_164_wf
def scatter_S70000x64_S500000x1_S500000x64_1_0_0_1 : ScatterDims S70000x64 S500000x1 S500000x64 where
  updateWindowDims := [1]
  insertedWindowDims := [0]
  scatterDimsToOperandDims := [0]
  indexVectorDim := 1
  wf := scatter_S70000x64_S500000x1_S500000x64_1_0_0_1_wf

class Facts : Prop extends Facts₀ where

variable [Facts]
-- ==== Proof.Graph.lean ====
/-
  The host-side functions of the edge list that the program applies between its regions, named once.
  An edge list is a 2 × 500000 array of integers: row 0 the source node of each edge, row 1 its target node.
  `sources` and `targets` are those rows; `fetchAt` is the column of start indices a row gather takes (a negative source
  counted from the end); `sendAt` the column of indices a scatter-add takes. `gathered` sums, for every node, the rows of a
  table found at the sources of the edges that end at it; `degree` is the larger of one and the number of such edges,
  and `recip` the column of its reciprocals. `beside` puts two weight matrices side by side.
-/
import proofs.«428144_j62715112456263_4_alg».proof.KernelIdeal
import Idealize.ShloMosaic.PureOps.Ideal

noncomputable section

open Idealize.ShloMosaic

namespace Cert.KernelIdeal.Graph

open Cert.KernelIdeal

variable [Facts₀]
open Facts₀

/-- Row 0 of the edge list: each edge's source node. -/
def sources (e : (⟨S2x500000, .i32⟩ : BufTy).Contents (Elt Ideal)) : (⟨S500000, .i32⟩ : BufTy).Contents (Elt Ideal) :=
  shapeCast _ (extractStridedSlice S1x500000 ![0, 0] e slices_S2x500000_S1x500000_0_0) shapeCasts_S1x500000_S500000

/-- Row 1 of the edge list: each edge's target node. -/
def targets (e : (⟨S2x500000, .i32⟩ : BufTy).Contents (Elt Ideal)) : (⟨S500000, .i32⟩ : BufTy).Contents (Elt Ideal) :=
  shapeCast _ (extractStridedSlice S1x500000 ![1, 0] e slices_S2x500000_S1x500000_1_0) shapeCasts_S1x500000_S500000

/-- The start indices of a row gather: a negative node number counts from the end. -/
def fetchAt (s : (⟨S500000, .i32⟩ : BufTy).Contents (Elt Ideal)) : (⟨S500000x1, .i32⟩ : BufTy).Contents (Elt Ideal) :=
  broadcastInDim S500000x1 ![0] bcast_S500000_S500000x1_0
    (select (cmpi .slt s (broadcastInDim S500000 ![] bcast_S_S500000 (constantI S_ 32 0#32)))
      (addi s (broadcastInDim S500000 ![] bcast_S_S500000 (constantI S_ 32 70000#32))) s)

/-- The indices a scatter-add sends its updates to. -/
def sendAt (d : (⟨S500000, .i32⟩ : BufTy).Contents (Elt Ideal)) : (⟨S500000x1, .i32⟩ : BufTy).Contents (Elt Ideal) :=
  broadcastInDim S500000x1 ![0] bcast_S500000_S500000x1_0 d

/-- For every node, the sum over the edges ending at it of the 128-wide table's row at the edge's source. -/
def gathered128 (h : (⟨S70000x128, .f32⟩ : BufTy).Contents (Elt Ideal)) (s d : (⟨S500000, .i32⟩ : BufTy).Contents (Elt Ideal)) :
    (⟨S70000x128, .f32⟩ : BufTy).Contents (Elt Ideal) :=
  Host.scatterAdd scatter_S70000x128_S500000x1_S500000x128_1_0_0_1
    (broadcastInDim S70000x128 ![] bcast_S_S70000x128 (constant (F := Ideal) S_ .f32 0x00000000#32)) (sendAt d)
    (Host.gather gather_S70000x128_S500000x1_S500000x128_1_0_n_n_0_1_1128 h (fetchAt s))

/-- The same for a 64-wide table. -/
def gathered64 (h : (⟨S70000x64, .f32⟩ : BufTy).Contents (Elt Ideal)) (s d : (⟨S500000, .i32⟩ : BufTy).Contents (Elt Ideal)) :
    (⟨S70000x64, .f32⟩ : BufTy).Contents (Elt Ideal) :=
  Host.scatterAdd scatter_S70000x64_S500000x1_S500000x64_1_0_0_1
    (broadcastInDim S70000x64 ![] bcast_S_S70000x64 (constant (F := Ideal) S_ .f32 0x00000000#32)) (sendAt d)
    (Host.gather gather_S70000x64_S500000x1_S500000x64_1_0_n_n_0_1_164 h (fetchAt s))

/-- For every node, the larger of one and the number of edges ending at it (a sum of ones). -/
def degree (d : (⟨S500000, .i32⟩ : BufTy).Contents (Elt Ideal)) : (⟨S70000, .f32⟩ : BufTy).Contents (Elt Ideal) :=
  maximumf
    (Host.scatterAdd scatter_S70000_S500000x1_S500000_n_0_0_1
      (broadcastInDim S70000 ![] bcast_S_S70000 (constant (F := Ideal) S_ .f32 0x00000000#32)) (sendAt d)
      (broadcastInDim S500000 ![] bcast_S_S500000 (constant (F := Ideal) S_ .f32 0x3F800000#32)))
    (broadcastInDim S70000 ![] bcast_S_S70000 (constant (F := Ideal) S_ .f32 0x3F800000#32))

/-- The column of one over `degree`. -/
def recip (d : (⟨S500000, .i32⟩ : BufTy).Contents (Elt Ideal)) : (⟨S70000x1, .f32⟩ : BufTy).Contents (Elt Ideal) :=
  broadcastInDim S70000x1 ![0] bcast_S70000_S70000x1_0
    (Host.divf (broadcastInDim S70000 ![] bcast_S_S70000 (constant (F := Ideal) S_ .f32 0x3F800000#32)) (degree d))

/-- Two 1044 × 128 matrices side by side. -/
def beside1 (a b : (⟨S1044x128, .f32⟩ : BufTy).Contents (Elt Ideal)) : (⟨S1044x256, .f32⟩ : BufTy).Contents (Elt Ideal) :=
  concatenate S1044x256 1 [⟨S1044x128, a⟩, ⟨S1044x128, b⟩] concatenates_S1044x128_S1044x128_S1044x256_d1

/-- Two 128 × 64 matrices side by side. -/
def beside2 (a b : (⟨S128x64, .f32⟩ : BufTy).Contents (Elt Ideal)) : (⟨S128x128, .f32⟩ : BufTy).Contents (Elt Ideal) :=
  concatenate S128x128 1 [⟨S128x64, a⟩, ⟨S128x64, b⟩] concatenates_S128x64_S128x64_S128x128_d1

end Cert.KernelIdeal.Graph

end
-- ==== Proof.LibPlainDot.lean ====
/-
  A plain matrix product read at one entry. For the dimension numbers "rows × contraction by contraction × columns"
  with no batch axis, the product into a zero accumulator, at row `r` and column `q`, is the sum over the contracted
  coordinate `j` of the left operand at (r, j) times the right operand at (j, q). The same holds for the host's
  `dot_general`. Both are stated over extended reals, where the product is the exact sum.
-/
import Idealize.ShloMosaic.PureOps.Ideal.Laws
import Idealize.ShloMosaic.Lib.ValueIdx

noncomputable section

open scoped BigOperators

namespace Cert.LibPlainDot

open Idealize.ShloMosaic Idealize.ShloMosaic.ValueIdx

/-- The left operand's index at output entry (r, q) and contracted coordinate `j` is (r, j). -/
theorem plain_lhsIdx (M K N : Nat) (r : Fin M) (q : Fin N) (j : Fin K) :
    (DotDims.plain M K N).lhsIdx (ix2 r q) ((contrEquiv1 (DotDims.plain M K N) K rfl rfl).symm j) = ix2 r j := by
  have hj := contrEquiv1_symm_val (DotDims.plain M K N) K rfl rfl j
  funext a
  apply Fin.ext
  match a with
  | ⟨0, _⟩ => rfl
  | ⟨1, _⟩ => refine Eq.trans ?_ hj; rfl

/-- The right operand's index at output entry (r, q) and contracted coordinate `j` is (j, q). -/
theorem plain_rhsIdx (M K N : Nat) (r : Fin M) (q : Fin N) (j : Fin K) :
    (DotDims.plain M K N).rhsIdx (ix2 r q) ((contrEquiv1 (DotDims.plain M K N) K rfl rfl).symm j) = ix2 j q := by
  have hj := contrEquiv1_symm_val (DotDims.plain M K N) K rfl rfl j
  funext a
  apply Fin.ext
  match a with
  | ⟨0, _⟩ => refine Eq.trans ?_ hj; rfl
  | ⟨1, _⟩ => rfl

/-- The matrix unit's product into a zero accumulator, at one entry. -/
theorem matmul_plain_apply {φ₁ φ₂ : FTy} (M K N : Nat) (prec : Option ContractPrecision)
    (A : FVec Ideal ⟨2, ![M, K]⟩ φ₁) (B : FVec Ideal ⟨2, ![K, N]⟩ φ₂) (r : Fin M) (q : Fin N) :
    FloatOps.matmul (DotDims.plain M K N) prec A B (constant ⟨2, ![M, N]⟩ .f32 0x00000000#32) (ix2 r q)
      = ∑ j : Fin K, A (ix2 r j) * B (ix2 j q) := by
  rw [Ideal.matmul_constant_zero_apply, ← Equiv.sum_comp (contrEquiv1 (DotDims.plain M K N) K rfl rfl).symm]
  refine Finset.sum_congr rfl fun j _ => ?_
  rw [plain_lhsIdx, plain_rhsIdx]

/-- The host's `dot_general`, at one entry. -/
theorem dotGeneral_plain_apply {φ₁ φ₂ : FTy} (M K N : Nat) (prec : Option ContractPrecision) (sched : HostSchedule)
    (A : FVec Ideal ⟨2, ![M, K]⟩ φ₁) (B : FVec Ideal ⟨2, ![K, N]⟩ φ₂) (r : Fin M) (q : Fin N) :
    FloatOps.dotGeneral (DotDims.plain M K N) prec sched A B (ix2 r q) = ∑ j : Fin K, A (ix2 r j) * B (ix2 j q) := by
  rw [Ideal.dotGeneral_apply, ← Equiv.sum_comp (contrEquiv1 (DotDims.plain M K N) K rfl rfl).symm]
  refine Finset.sum_congr rfl fun j _ => ?_
  rw [plain_lhsIdx, plain_rhsIdx]

end Cert.LibPlainDot

end
-- ==== Proof.Project1.lean ====
/-
  The first layer's projection, as two functions of whole arrays. The body at a grid point multiplies a block of 2000 rows
  of the features by the whole 1044 × 256 weight matrix (the narrowing of both operands to a shorter float format changes
  nothing over the extended reals, and the product into a zero accumulator is the exact sum over the contracted
  coordinate) and stores columns 0 … 127 of the product in one result and columns 128 … 255 in the other. The 35 blocks
  tile the 70000 rows, so after the region entry (r, q) of the first result is  Σ_k x (r, k) · w (k, q)  and of the second
  Σ_k x (r, k) · w (k, q + 128).
-/
import proofs.«428144_j62715112456263_4_alg».proof.Proof.Gen.KernelIdeal.Frame
import proofs.«428144_j62715112456263_4_alg».proof.Proof.LibPlainDot
import Idealize.ShloMosaic.Lib.Pipeline.Value
import Idealize.ShloMosaic.Lib.ValueIdx
import Idealize.ShloMosaic.Lib.ValueLayout

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Project1

open Cert.KernelIdeal Cert.KernelIdeal.Gen

variable (V : (c : Dev nD) → (b : Ref sig .tc) → Buf (Elt Ideal) ((c : Thread nD τ).loc b))

theorem zero2 : (![0, 0] : Fin 2 → Nat) = fun _ => 0 := funext fun a => by fin_cases a <;> rfl

/-- Entry (r, q) of the product with the weight matrix's left half. -/
def left (x : FVec Ideal S70000x1044 .f32) (w : FVec Ideal S1044x256 .f32) : FVec Ideal S70000x128 .f32 :=
  fun i => ∑ k : Fin 1044, x (ix2 (⟨(i 0).val, (i 0).isLt⟩ : Fin 70000) k)
    * w (ix2 k (⟨(i 1).val, Nat.lt_trans (i 1).isLt (by decide : (128 : Nat) < 256)⟩ : Fin 256))

/-- Entry (r, q) of the product with the weight matrix's right half. -/
def right (x : FVec Ideal S70000x1044 .f32) (w : FVec Ideal S1044x256 .f32) : FVec Ideal S70000x128 .f32 :=
  fun i => ∑ k : Fin 1044, x (ix2 (⟨(i 0).val, (i 0).isLt⟩ : Fin 70000) k)
    * w (ix2 k (⟨(i 1).val + 128, Nat.add_lt_add_right (i 1).isLt 128⟩ : Fin 256))

/-- The printed dimension numbers are those of a plain matrix product. -/
theorem dims_plain : dot_S2000x1044_S1044x256_S2000x256_1_0_0_1_n_n = DotDims.plain 2000 1044 256 := rfl

/-- The block's full product at row p, column q. -/
theorem product_apply (x : Vec Ideal S2000x1044 .f32) (w : Vec Ideal S1044x256 .f32) (p : Fin 2000) (q : Fin 256) :
    k0_pay1 x w (ix2 p q) = ∑ k : Fin 1044, x (ix2 p k) * w (ix2 k q) := by
  unfold k0_pay1
  simp only [shapeCast_self]
  rw [dims_plain]
  exact Cert.LibPlainDot.matmul_plain_apply 2000 1044 256 none (truncf .bf16 x bitsLt_bf16_f32)
    (truncf .bf16 w bitsLt_bf16_f32) p q

/-- The value stored in the first result at row p, column q. -/
theorem stored_left (x : Vec Ideal S2000x1044 .f32) (w : Vec Ideal S1044x256 .f32) (p : Fin 2000) (q : Fin 128) :
    k0_pay2 x w (ix2 p q) = ∑ k : Fin 1044, x (ix2 p k) * w (ix2 k (⟨q.val, Nat.lt_trans q.isLt (by decide)⟩ : Fin 256)) := by
  unfold k0_pay2
  refine (extractStridedSlice_apply _ _ _ (ix2 p q) (ix2 p (⟨q.val, Nat.lt_trans q.isLt (by decide)⟩ : Fin 256)) fun a => ?_).trans
    (product_apply x w p _)
  match a with
  | ⟨0, _⟩ => show p.val = 0 + p.val; omega
  | ⟨1, _⟩ => show q.val = 0 + q.val; omega

/-- The value stored in the second result at row p, column q. -/
theorem stored_right (x : Vec Ideal S2000x1044 .f32) (w : Vec Ideal S1044x256 .f32) (p : Fin 2000) (q : Fin 128) :
    k0_pay3 x w (ix2 p q) = ∑ k : Fin 1044, x (ix2 p k) * w (ix2 k (⟨q.val + 128, Nat.add_lt_add_right q.isLt 128⟩ : Fin 256)) := by
  unfold k0_pay3
  refine (extractStridedSlice_apply _ _ _ (ix2 p q) (ix2 p (⟨q.val + 128, Nat.add_lt_add_right q.isLt 128⟩ : Fin 256)) fun a => ?_).trans
    (product_apply x w p _)
  match a with
  | ⟨0, _⟩ => show p.val = 0 + p.val; omega
  | ⟨1, _⟩ => show q.val + 128 = 128 + q.val; omega

/-- The printed index maps over the grid: the row-blocked windows are at block t, the weight window at block 0. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The feature block at point t, row p: row t · 2000 + p of the array. -/
theorem rows_read (c : Dev nD) (t : Fin cfg0.N) (p : Fin 2000) (k : Fin 1044) (r : Fin 70000)
    (hr : r.val = t.val * 2000 + p.val) :
    iblk0 V c 0 t (ix2 p k) = (V c main_arg0 : FVec Ideal S70000x1044 .f32) (ix2 r k) := by
  obtain ⟨a0, a1, -⟩ := index_facts t
  unfold iblk0; rw [View.read_apply]
  show (V c main_arg0 : FVec Ideal S70000x1044 .f32) _ = _
  refine congrArg _ (funext fun a => Fin.ext ?_)
  match a with
  | ⟨0, _⟩ => show win0_0.index t (0 : Fin 2) * 2000 + 1 * p.val = r.val; rw [a0, hr]; omega
  | ⟨1, _⟩ => show win0_0.index t (1 : Fin 2) * 1044 + 1 * k.val = k.val; rw [a1]; omega

/-- The weight block at every point is the whole matrix. -/
theorem weights_read (c : Dev nD) (t : Fin cfg0.N) (k : Fin 1044) (q : Fin 256) :
    iblk0 V c 1 t (ix2 k q) = (V c main_v13 : FVec Ideal S1044x256 .f32) (ix2 k q) := by
  obtain ⟨-, -, b0, b1, -⟩ := index_facts t
  unfold iblk0; rw [View.read_apply]
  show (V c main_v13 : FVec Ideal S1044x256 .f32) _ = _
  refine congrArg _ (funext fun a => Fin.ext ?_)
  match a with
  | ⟨0, _⟩ => show win0_1.index t (0 : Fin 2) * 1044 + 1 * k.val = k.val; rw [b0]; omega
  | ⟨1, _⟩ => show win0_1.index t (1 : Fin 2) * 256 + 1 * q.val = q.val; rw [b1]; omega

/-- What point t writes back to the first result is block t of `left` of the arrays the region found. -/
theorem flushed_left (c : Dev nD) (t : Fin cfg0.N) :
    (dat0 V c).flushed 2 t = ((cfg0.win 2).blk t).view.read (Elt Ideal) (left (V c main_arg0) (V c main_v13)) := by
  show (cfg0.win 2).cut (grid0.coords t) ((dat0 V c).after 2 t) = _
  rw [after0_2]
  unfold out0_2
  rw [View.canon_unit_zero zero2]
  simp only [View.ld_unit_zero (S := S2000x1044) zero2, View.ld_unit_zero (S := S1044x256) zero2]
  obtain ⟨-, -, -, -, e0, e1, -⟩ := index_facts t
  funext j
  obtain ⟨p, q, rfl⟩ : ∃ (p : Fin 2000) (q : Fin 128), j = ix2 p q := ⟨j 0, j 1, eq_ix2 j⟩
  refine (stored_left (iblk0 V c 0 t) (iblk0 V c 1 t) p q).trans ?_
  rw [View.read_apply]
  obtain ⟨i, hi⟩ : ∃ i : S70000x128.Idx, i = ((View.whole main_v14_0).slice ((win0 2).rect t)).emb (ix2 p q) := ⟨_, rfl⟩
  have hi0 : (i 0).val = t.val * 2000 + p.val := by
    rw [hi]; show win0_2.index t (0 : Fin 2) * 2000 + 1 * p.val = _; rw [e0]; omega
  have hi1 : (i 1).val = q.val := by
    rw [hi]; show win0_2.index t (1 : Fin 2) * 128 + 1 * q.val = _; rw [e1]; omega
  rw [← hi]
  unfold left
  refine Finset.sum_congr rfl fun k _ => ?_
  have hq : (⟨q.val, Nat.lt_trans q.isLt (by decide)⟩ : Fin 256)
      = ⟨(i 1).val, Nat.lt_trans (i 1).isLt (by decide : (128 : Nat) < 256)⟩ := Fin.ext hi1.symm
  rw [rows_read V c t p k ⟨(i 0).val, (i 0).isLt⟩ hi0, weights_read V c t k, hq]

/-- What point t writes back to the second result is block t of `right` of the arrays the region found. -/
theorem flushed_right (c : Dev nD) (t : Fin cfg0.N) :
    (dat0 V c).flushed 3 t = ((cfg0.win 3).blk t).view.read (Elt Ideal) (right (V c main_arg0) (V c main_v13)) := by
  show (cfg0.win 3).cut (grid0.coords t) ((dat0 V c).after 3 t) = _
  rw [after0_3]
  unfold out0_3
  rw [View.canon_unit_zero zero2]
  simp only [View.ld_unit_zero (S := S2000x1044) zero2, View.ld_unit_zero (S := S1044x256) zero2]
  obtain ⟨-, -, -, -, -, -, e0, e1⟩ := index_facts t
  funext j
  obtain ⟨p, q, rfl⟩ : ∃ (p : Fin 2000) (q : Fin 128), j = ix2 p q := ⟨j 0, j 1, eq_ix2 j⟩
  refine (stored_right (iblk0 V c 0 t) (iblk0 V c 1 t) p q).trans ?_
  rw [View.read_apply]
  obtain ⟨i, hi⟩ : ∃ i : S70000x128.Idx, i = ((View.whole main_v14_1).slice ((win0 3).rect t)).emb (ix2 p q) := ⟨_, rfl⟩
  have hi0 : (i 0).val = t.val * 2000 + p.val := by
    rw [hi]; show win0_3.index t (0 : Fin 2) * 2000 + 1 * p.val = _; rw [e0]; omega
  have hi1 : (i 1).val = q.val := by
    rw [hi]; show win0_3.index t (1 : Fin 2) * 128 + 1 * q.val = _; rw [e1]; omega
  rw [← hi]
  unfold right
  refine Finset.sum_congr rfl fun k _ => ?_
  have hq : (⟨q.val + 128, Nat.add_lt_add_right q.isLt 128⟩ : Fin 256)
      = ⟨(i 1).val + 128, Nat.add_lt_add_right (i 1).isLt 128⟩ := Fin.ext (by show q.val + 128 = (i 1).val + 128; rw [hi1])
  rw [rows_read V c t p k ⟨(i 0).val, (i 0).isLt⟩ hi0, weights_read V c t k, hq]

/-- Row r lies in the block of point r / 2000, in either result. -/
theorem covered_left (i : S70000x128.Idx) :
    ∃ t : Fin cfg0.N, (cfg0.win 2).flush t = true ∧ i ∈ ((cfg0.win 2).blk t).view.set := by
  have h0 : (i 0).val < 70000 := (i 0).isLt
  have h1 : (i 1).val < 128 := (i 1).isLt
  obtain ⟨t, ht⟩ : ∃ t : Fin cfg0.N, t.val = (i 0).val / 2000 :=
    ⟨⟨(i 0).val / 2000, by rw [show cfg0.N = 35 from N_0]; omega⟩, rfl⟩
  obtain ⟨-, -, -, -, e0, e1, -⟩ := index_facts t
  refine ⟨t, flush0_2 t, ?_⟩
  show i ∈ ((View.whole main_v14_0).slice (win0_2.rect t)).set
  rw [View.set_slice_whole, Rect.mem_set_unit]
  intro a
  match a with
  | ⟨0, _⟩ =>
    show win0_2.index t (0 : Fin 2) * 2000 ≤ (i 0).val ∧ (i 0).val < win0_2.index t (0 : Fin 2) * 2000 + 2000
    rw [e0, ht]; omega
  | ⟨1, _⟩ =>
    show win0_2.index t (1 : Fin 2) * 128 ≤ (i 1).val ∧ (i 1).val < win0_2.index t (1 : Fin 2) * 128 + 128
    rw [e1]; omega

theorem covered_right (i : S70000x128.Idx) :
    ∃ t : Fin cfg0.N, (cfg0.win 3).flush t = true ∧ i ∈ ((cfg0.win 3).blk t).view.set := by
  have h0 : (i 0).val < 70000 := (i 0).isLt
  have h1 : (i 1).val < 128 := (i 1).isLt
  obtain ⟨t, ht⟩ : ∃ t : Fin cfg0.N, t.val = (i 0).val / 2000 :=
    ⟨⟨(i 0).val / 2000, by rw [show cfg0.N = 35 from N_0]; omega⟩, rfl⟩
  obtain ⟨-, -, -, -, -, -, e0, e1⟩ := index_facts t
  refine ⟨t, flush0_3 t, ?_⟩
  show i ∈ ((View.whole main_v14_1).slice (win0_3.rect t)).set
  rw [View.set_slice_whole, Rect.mem_set_unit]
  intro a
  match a with
  | ⟨0, _⟩ =>
    show win0_3.index t (0 : Fin 2) * 2000 ≤ (i 0).val ∧ (i 0).val < win0_3.index t (0 : Fin 2) * 2000 + 2000
    rw [e0, ht]; omega
  | ⟨1, _⟩ =>
    show win0_3.index t (1 : Fin 2) * 128 ≤ (i 1).val ∧ (i 1).val < win0_3.index t (1 : Fin 2) * 128 + 128
    rw [e1]; omega

/-- After the region the two result arrays are `left` and `right` of the arrays the region found. -/
theorem result_left (c : Dev nD) :
    (dat0 V c).arrAt 2 cfg0.N = left (V c main_arg0) (V c main_v13) :=
  (dat0 V c).arrAt_eq_of_cover 2 _ (fun t _ => flushed_left V c t) covered_left

theorem result_right (c : Dev nD) :
    (dat0 V c).arrAt 3 cfg0.N = right (V c main_arg0) (V c main_v13) :=
  (dat0 V c).arrAt_eq_of_cover 3 _ (fun t _ => flushed_right V c t) covered_right

end Cert.KernelIdeal.Project1

end
-- ==== Proof.Mean1.lean ====
/-
  The first layer's last step, as one function of whole arrays. The body at a grid point takes a block of 2000 rows of the
  aggregated messages, the same rows of the reciprocal-degree column and of the root term, and the bias vector, and
  stores  max (msg · inv + bias + root, 0)  on those rows (the narrowing of the stored value to a shorter float format
  changes nothing over the extended reals). The 35 blocks tile the 70000 rows, so after the region the result array is
  that expression at every entry.
-/
import proofs.«428144_j62715112456263_4_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Mean1

open Cert.KernelIdeal Cert.KernelIdeal.Gen

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a <;> rfl

/-- Entry (r, q): the larger of zero and the aggregated message scaled by row r's reciprocal degree, plus column q's
    bias, plus the root term. -/
def scaledPos (msg : FVec Ideal S70000x128 .f32) (inv : FVec Ideal S70000x1 .f32) (root : FVec Ideal S70000x128 .f32)
    (bias : FVec Ideal S128 .f32) : FVec Ideal S70000x128 .bf16 :=
  fun i => max (msg i * inv (ix2 (⟨(i 0).val, (i 0).isLt⟩ : Fin 70000) (0 : Fin 1))
    + bias (ix1 (⟨(i 1).val, (i 1).isLt⟩ : Fin 128)) + root i) (Ideal.ofBits .f32 0x00000000#32)

/-- The body's stored value at row p, column q of its block. -/
theorem stored_apply (x0 : Vec Ideal S2000x128 .f32) (x1 : Vec Ideal S2000x1 .f32) (x3 : Vec Ideal S128 .f32)
    (x2 : Vec Ideal S2000x128 .f32) (p : Fin 2000) (q : Fin 128) :
    k1_pay1 x0 x1 x3 x2 (ix2 p q)
      = max (x0 (ix2 p q) * x1 (ix2 p 0) + x3 (ix1 q) + x2 (ix2 p q)) (Ideal.ofBits .f32 0x00000000#32) := by
  unfold k1_pay1
  simp only [shapeCast_self]
  show max (x0 (ix2 p q) * broadcastTo S2000x128 x1 broadcasts_S2000x1_S2000x128 (ix2 p q)
      + broadcastTo S2000x128 (shapeCast S1x128 x3 shapeCasts_S128_S1x128) broadcasts_S1x128_S2000x128 (ix2 p q)
      + x2 (ix2 p q)) (Ideal.ofBits .f32 0x00000000#32) = _
  have e1 : broadcastTo S2000x128 x1 broadcasts_S2000x1_S2000x128 (ix2 p q) = x1 (ix2 p 0) :=
    broadcastTo_apply x1 _ (ix2 p q) (ix2 p 0) fun a => by
      match a with
      | ⟨0, _⟩ => rfl
      | ⟨1, _⟩ => rfl
  have e2 : broadcastTo S2000x128 (shapeCast S1x128 x3 shapeCasts_S128_S1x128) broadcasts_S1x128_S2000x128 (ix2 p q)
      = x3 (ix1 q) := by
    refine (broadcastTo_apply _ _ (ix2 p q) (ix2 (0 : Fin 1) q) fun a => by
      match a with
      | ⟨0, _⟩ => rfl
      | ⟨1, _⟩ => rfl).trans ?_
    exact shapeCast_apply x3 _ (ix2 (0 : Fin 1) q) (ix1 q) (by
      rw [Shape.rowMajor_val_one, Shape.rowMajor_val_two]; simp)
  rw [e1, e2]

/-- The printed index maps over the grid: every row-blocked window is at block t, the bias window at block 0. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 1) = 0
    ∧ win1_4.index t (0 : Fin 2) = t.val ∧ win1_4.index t (1 : Fin 2) = 0 :=
  (by decide +kernel : ∀ t : Fin grid1.N, _)

/-- What point t writes back is block t of `scaledPos` of the arrays the region found. -/
theorem flushed_eq (c : Dev nD) (t : Fin cfg1.N) :
    (dat1 V c).flushed 4 t = ((cfg1.win 4).blk t).view.read (Elt Ideal)
      (scaledPos (V c main_v24) (V c main_v12) (V c main_v14_1) (V c main_arg5)) := by
  show (cfg1.win 4).cut (grid1.coords t) ((dat1 V c).after 4 t) = _
  rw [after1_4]
  unfold out1_4
  rw [View.canon_unit_zero zero2]
  simp only [View.ld_unit_zero (S := S2000x128) zero2, View.ld_unit_zero (S := S2000x1) zero2, View.ld_unit_zero (S := S128) zero1]
  obtain ⟨a0, a1, b0, b1, c0, c1, d0, e0, e1⟩ := index_facts t
  funext j
  obtain ⟨p, q, rfl⟩ : ∃ (p : Fin 2000) (q : Fin 128), j = ix2 p q := ⟨j 0, j 1, eq_ix2 j⟩
  refine (stored_apply (iblk1 V c 0 t) (iblk1 V c 1 t) (iblk1 V c 3 t) (iblk1 V c 2 t) p q).trans ?_
  rw [View.read_apply]
  obtain ⟨i, hi⟩ : ∃ i : S70000x128.Idx, i = ((View.whole main_v25).slice ((win1 4).rect t)).emb (ix2 p q) := ⟨_, rfl⟩
  have hi0 : (i 0).val = t.val * 2000 + p.val := by
    rw [hi]; show win1_4.index t (0 : Fin 2) * 2000 + 1 * p.val = _; rw [e0]; omega
  have hi1 : (i 1).val = q.val := by
    rw [hi]; show win1_4.index t (1 : Fin 2) * 128 + 1 * q.val = _; rw [e1]; omega
  rw [← hi]
  have r0 : iblk1 V c 0 t (ix2 p q) = (V c main_v24 : FVec Ideal S70000x128 .f32) i := by
    unfold iblk1; rw [View.read_apply]
    show (V c main_v24 : FVec Ideal S70000x128 .f32) _ = _
    refine congrArg _ (funext fun a => Fin.ext ?_)
    match a with
    | ⟨0, _⟩ => show win1_0.index t (0 : Fin 2) * 2000 + 1 * p.val = (i 0).val; rw [a0, hi0]; omega
    | ⟨1, _⟩ => show win1_0.index t (1 : Fin 2) * 128 + 1 * q.val = (i 1).val; rw [a1, hi1]; omega
  have r1 : iblk1 V c 1 t (ix2 p 0) = (V c main_v12 : FVec Ideal S70000x1 .f32) (ix2 (⟨(i 0).val, (i 0).isLt⟩ : Fin 70000) (0 : Fin 1)) := by
    unfold iblk1; rw [View.read_apply]
    show (V c main_v12 : FVec Ideal S70000x1 .f32) _ = _
    refine congrArg _ (funext fun a => Fin.ext ?_)
    match a with
    | ⟨0, _⟩ => show win1_1.index t (0 : Fin 2) * 2000 + 1 * p.val = (i 0).val; rw [b0, hi0]; omega
    | ⟨1, _⟩ => show win1_1.index t (1 : Fin 2) * 1 + 1 * 0 = 0; rw [b1]
  have r2 : iblk1 V c 2 t (ix2 p q) = (V c main_v14_1 : FVec Ideal S70000x128 .f32) i := by
    unfold iblk1; rw [View.read_apply]
    show (V c main_v14_1 : FVec Ideal S70000x128 .f32) _ = _
    refine congrArg _ (funext fun a => Fin.ext ?_)
    match a with
    | ⟨0, _⟩ => show win1_2.index t (0 : Fin 2) * 2000 + 1 * p.val = (i 0).val; rw [c0, hi0]; omega
    | ⟨1, _⟩ => show win1_2.index t (1 : Fin 2) * 128 + 1 * q.val = (i 1).val; rw [c1, hi1]; omega
  have r3 : iblk1 V c 3 t (ix1 q) = (V c main_arg5 : FVec Ideal S128 .f32) (ix1 (⟨(i 1).val, (i 1).isLt⟩ : Fin 128)) := by
    unfold iblk1; rw [View.read_apply]
    show (V c main_arg5 : FVec Ideal S128 .f32) _ = _
    refine congrArg _ (funext fun a => Fin.ext ?_)
    match a with
    | ⟨0, _⟩ => show win1_3.index t (0 : Fin 1) * 128 + 1 * q.val = (i 1).val; rw [d0, hi1]; omega
  rw [r0, r1, r2, r3]
  rfl

/-- Row r lies in the block of point r / 2000. -/
theorem covered (i : S70000x128.Idx) :
    ∃ t : Fin cfg1.N, (cfg1.win 4).flush t = true ∧ i ∈ ((cfg1.win 4).blk t).view.set := by
  have h0 : (i 0).val < 70000 := (i 0).isLt
  have h1 : (i 1).val < 128 := (i 1).isLt
  obtain ⟨t, ht⟩ : ∃ t : Fin cfg1.N, t.val = (i 0).val / 2000 :=
    ⟨⟨(i 0).val / 2000, by rw [show cfg1.N = 35 from N_1]; omega⟩, rfl⟩
  obtain ⟨-, -, -, -, -, -, -, e0, e1⟩ := index_facts t
  refine ⟨t, flush1_4 t, ?_⟩
  show i ∈ ((View.whole main_v25).slice (win1_4.rect t)).set
  rw [View.set_slice_whole, Rect.mem_set_unit]
  intro a
  match a with
  | ⟨0, _⟩ =>
    show win1_4.index t (0 : Fin 2) * 2000 ≤ (i 0).val ∧ (i 0).val < win1_4.index t (0 : Fin 2) * 2000 + 2000
    rw [e0, ht]; omega
  | ⟨1, _⟩ =>
    show win1_4.index t (1 : Fin 2) * 128 ≤ (i 1).val ∧ (i 1).val < win1_4.index t (1 : Fin 2) * 128 + 128
    rw [e1]; omega

/-- After the region the result array is `scaledPos` of the arrays the region found. -/
theorem result (c : Dev nD) :
    (dat1 V c).arrAt 4 cfg1.N = scaledPos (V c main_v24) (V c main_v12) (V c main_v14_1) (V c main_arg5) :=
  (dat1 V c).arrAt_eq_of_cover 4 _ (fun t _ => flushed_eq V c t) covered

end Cert.KernelIdeal.Mean1

end
-- ==== Proof.Project2.lean ====
/-
  The second layer's projection, as two functions of whole arrays. The body at a grid point multiplies a block of 2000 rows
  of the first layer's output by the whole 128 × 128 weight matrix (the narrowing of the weights to a shorter float format
  changes nothing over the extended reals, and the product into a zero accumulator is the exact sum over the contracted
  coordinate) and stores columns 0 … 63 of the product in one result and columns 64 … 127 in the other. The 35 blocks tile
  the 70000 rows, so after the region entry (r, q) of the first result is  Σ_k y (r, k) · w (k, q)  and of the second
  Σ_k y (r, k) · w (k, q + 64).
-/
import proofs.«428144_j62715112456263_4_alg».proof.Proof.Gen.KernelIdeal.Frame
import proofs.«428144_j62715112456263_4_alg».proof.Proof.LibPlainDot
import Idealize.ShloMosaic.Lib.Pipeline.Value
import Idealize.ShloMosaic.Lib.ValueIdx
import Idealize.ShloMosaic.Lib.ValueLayout

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Project2

open Cert.KernelIdeal Cert.KernelIdeal.Gen

variable (V : (c : Dev nD) → (b : Ref sig .tc) → Buf (Elt Ideal) ((c : Thread nD τ).loc b))

theorem zero2 : (![0, 0] : Fin 2 → Nat) = fun _ => 0 := funext fun a => by fin_cases a <;> rfl

/-- Entry (r, q) of the product with the weight matrix's left half. -/
def left (y : FVec Ideal S70000x128 .bf16) (w : FVec Ideal S128x128 .f32) : FVec Ideal S70000x64 .f32 :=
  fun i => ∑ k : Fin 128, y (ix2 (⟨(i 0).val, (i 0).isLt⟩ : Fin 70000) k)
    * w (ix2 k (⟨(i 1).val, Nat.lt_trans (i 1).isLt (by decide : (64 : Nat) < 128)⟩ : Fin 128))

/-- Entry (r, q) of the product with the weight matrix's right half. -/
def right (y : FVec Ideal S70000x128 .bf16) (w : FVec Ideal S128x128 .f32) : FVec Ideal S70000x64 .f32 :=
  fun i => ∑ k : Fin 128, y (ix2 (⟨(i 0).val, (i 0).isLt⟩ : Fin 70000) k)
    * w (ix2 k (⟨(i 1).val + 64, Nat.add_lt_add_right (i 1).isLt 64⟩ : Fin 128))

/-- The printed dimension numbers are those of a plain matrix product. -/
theorem dims_plain : dot_S2000x128_S128x128_S2000x128_1_0_0_1_n_n = DotDims.plain 2000 128 128 := rfl

/-- The block's full product at row p, column q. -/
theorem product_apply (y : Vec Ideal S2000x128 .bf16) (w : Vec Ideal S128x128 .f32) (p : Fin 2000) (q : Fin 128) :
    k2_pay1 y w (ix2 p q) = ∑ k : Fin 128, y (ix2 p k) * w (ix2 k q) := by
  unfold k2_pay1
  simp only [shapeCast_self]
  rw [dims_plain]
  exact Cert.LibPlainDot.matmul_plain_apply 2000 128 128 none y (truncf .bf16 w bitsLt_bf16_f32) p q

/-- The value stored in the first result at row p, column q. -/
theorem stored_left (y : Vec Ideal S2000x128 .bf16) (w : Vec Ideal S128x128 .f32) (p : Fin 2000) (q : Fin 64) :
    k2_pay2 y w (ix2 p q) = ∑ k : Fin 128, y (ix2 p k) * w (ix2 k (⟨q.val, Nat.lt_trans q.isLt (by decide)⟩ : Fin 128)) := by
  unfold k2_pay2
  refine (extractStridedSlice_apply _ _ _ (ix2 p q) (ix2 p (⟨q.val, Nat.lt_trans q.isLt (by decide)⟩ : Fin 128)) fun a => ?_).trans
    (product_apply y w p _)
  match a with
  | ⟨0, _⟩ => show p.val = 0 + p.val; omega
  | ⟨1, _⟩ => show q.val = 0 + q.val; omega

/-- The value stored in the second result at row p, column q. -/
theorem stored_right (y : Vec Ideal S2000x128 .bf16) (w : Vec Ideal S128x128 .f32) (p : Fin 2000) (q : Fin 64) :
    k2_pay3 y w (ix2 p q) = ∑ k : Fin 128, y (ix2 p k) * w (ix2 k (⟨q.val + 64, Nat.add_lt_add_right q.isLt 64⟩ : Fin 128)) := by
  unfold k2_pay3
  refine (extractStridedSlice_apply _ _ _ (ix2 p q) (ix2 p (⟨q.val + 64, Nat.add_lt_add_right q.isLt 64⟩ : Fin 128)) fun a => ?_).trans
    (product_apply y w p _)
  match a with
  | ⟨0, _⟩ => show p.val = 0 + p.val; omega
  | ⟨1, _⟩ => show q.val + 64 = 64 + q.val; omega

/-- The printed index maps over the grid: the row-blocked windows are at block t, the weight window at block 0. -/
theorem index_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- The input block at point t, row p: row t · 2000 + p of the array. -/
theorem rows_read (c : Dev nD) (t : Fin cfg2.N) (p : Fin 2000) (k : Fin 128) (r : Fin 70000)
    (hr : r.val = t.val * 2000 + p.val) :
    iblk2 V c 0 t (ix2 p k) = (V c main_v25 : FVec Ideal S70000x128 .bf16) (ix2 r k) := by
  obtain ⟨a0, a1, -⟩ := index_facts t
  unfold iblk2; rw [View.read_apply]
  show (V c main_v25 : FVec Ideal S70000x128 .bf16) _ = _
  refine congrArg _ (funext fun a => Fin.ext ?_)
  match a with
  | ⟨0, _⟩ => show win2_0.index t (0 : Fin 2) * 2000 + 1 * p.val = r.val; rw [a0, hr]; omega
  | ⟨1, _⟩ => show win2_0.index t (1 : Fin 2) * 128 + 1 * k.val = k.val; rw [a1]; omega

/-- The weight block at every point is the whole matrix. -/
theorem weights_read (c : Dev nD) (t : Fin cfg2.N) (k : Fin 128) (q : Fin 128) :
    iblk2 V c 1 t (ix2 k q) = (V c main_v26 : FVec Ideal S128x128 .f32) (ix2 k q) := by
  obtain ⟨-, -, b0, b1, -⟩ := index_facts t
  unfold iblk2; rw [View.read_apply]
  show (V c main_v26 : FVec Ideal S128x128 .f32) _ = _
  refine congrArg _ (funext fun a => Fin.ext ?_)
  match a with
  | ⟨0, _⟩ => show win2_1.index t (0 : Fin 2) * 128 + 1 * k.val = k.val; rw [b0]; omega
  | ⟨1, _⟩ => show win2_1.index t (1 : Fin 2) * 128 + 1 * q.val = q.val; rw [b1]; omega

/-- What point t writes back to the first result is block t of `left` of the arrays the region found. -/
theorem flushed_left (c : Dev nD) (t : Fin cfg2.N) :
    (dat2 V c).flushed 2 t = ((cfg2.win 2).blk t).view.read (Elt Ideal) (left (V c main_v25) (V c main_v26)) := by
  show (cfg2.win 2).cut (grid2.coords t) ((dat2 V c).after 2 t) = _
  rw [after2_2]
  unfold out2_2
  rw [View.canon_unit_zero zero2]
  simp only [View.ld_unit_zero (S := S2000x128) zero2, View.ld_unit_zero (S := S128x128) zero2]
  obtain ⟨-, -, -, -, e0, e1, -⟩ := index_facts t
  funext j
  obtain ⟨p, q, rfl⟩ : ∃ (p : Fin 2000) (q : Fin 64), j = ix2 p q := ⟨j 0, j 1, eq_ix2 j⟩
  refine (stored_left (iblk2 V c 0 t) (iblk2 V c 1 t) p q).trans ?_
  rw [View.read_apply]
  obtain ⟨i, hi⟩ : ∃ i : S70000x64.Idx, i = ((View.whole main_v27_0).slice ((win2 2).rect t)).emb (ix2 p q) := ⟨_, rfl⟩
  have hi0 : (i 0).val = t.val * 2000 + p.val := by
    rw [hi]; show win2_2.index t (0 : Fin 2) * 2000 + 1 * p.val = _; rw [e0]; omega
  have hi1 : (i 1).val = q.val := by
    rw [hi]; show win2_2.index t (1 : Fin 2) * 64 + 1 * q.val = _; rw [e1]; omega
  rw [← hi]
  unfold left
  refine Finset.sum_congr rfl fun k _ => ?_
  have hq : (⟨q.val, Nat.lt_trans q.isLt (by decide)⟩ : Fin 128)
      = ⟨(i 1).val, Nat.lt_trans (i 1).isLt (by decide : (64 : Nat) < 128)⟩ := Fin.ext hi1.symm
  rw [rows_read V c t p k ⟨(i 0).val, (i 0).isLt⟩ hi0, weights_read V c t k, hq]

/-- What point t writes back to the second result is block t of `right` of the arrays the region found. -/
theorem flushed_right (c : Dev nD) (t : Fin cfg2.N) :
    (dat2 V c).flushed 3 t = ((cfg2.win 3).blk t).view.read (Elt Ideal) (right (V c main_v25) (V c main_v26)) := by
  show (cfg2.win 3).cut (grid2.coords t) ((dat2 V c).after 3 t) = _
  rw [after2_3]
  unfold out2_3
  rw [View.canon_unit_zero zero2]
  simp only [View.ld_unit_zero (S := S2000x128) zero2, View.ld_unit_zero (S := S128x128) zero2]
  obtain ⟨-, -, -, -, -, -, e0, e1⟩ := index_facts t
  funext j
  obtain ⟨p, q, rfl⟩ : ∃ (p : Fin 2000) (q : Fin 64), j = ix2 p q := ⟨j 0, j 1, eq_ix2 j⟩
  refine (stored_right (iblk2 V c 0 t) (iblk2 V c 1 t) p q).trans ?_
  rw [View.read_apply]
  obtain ⟨i, hi⟩ : ∃ i : S70000x64.Idx, i = ((View.whole main_v27_1).slice ((win2 3).rect t)).emb (ix2 p q) := ⟨_, rfl⟩
  have hi0 : (i 0).val = t.val * 2000 + p.val := by
    rw [hi]; show win2_3.index t (0 : Fin 2) * 2000 + 1 * p.val = _; rw [e0]; omega
  have hi1 : (i 1).val = q.val := by
    rw [hi]; show win2_3.index t (1 : Fin 2) * 64 + 1 * q.val = _; rw [e1]; omega
  rw [← hi]
  unfold right
  refine Finset.sum_congr rfl fun k _ => ?_
  have hq : (⟨q.val + 64, Nat.add_lt_add_right q.isLt 64⟩ : Fin 128)
      = ⟨(i 1).val + 64, Nat.add_lt_add_right (i 1).isLt 64⟩ := Fin.ext (by show q.val + 64 = (i 1).val + 64; rw [hi1])
  rw [rows_read V c t p k ⟨(i 0).val, (i 0).isLt⟩ hi0, weights_read V c t k, hq]

/-- Row r lies in the block of point r / 2000, in either result. -/
theorem covered_left (i : S70000x64.Idx) :
    ∃ t : Fin cfg2.N, (cfg2.win 2).flush t = true ∧ i ∈ ((cfg2.win 2).blk t).view.set := by
  have h0 : (i 0).val < 70000 := (i 0).isLt
  have h1 : (i 1).val < 64 := (i 1).isLt
  obtain ⟨t, ht⟩ : ∃ t : Fin cfg2.N, t.val = (i 0).val / 2000 :=
    ⟨⟨(i 0).val / 2000, by rw [show cfg2.N = 35 from N_2]; omega⟩, rfl⟩
  obtain ⟨-, -, -, -, e0, e1, -⟩ := index_facts t
  refine ⟨t, flush2_2 t, ?_⟩
  show i ∈ ((View.whole main_v27_0).slice (win2_2.rect t)).set
  rw [View.set_slice_whole, Rect.mem_set_unit]
  intro a
  match a with
  | ⟨0, _⟩ =>
    show win2_2.index t (0 : Fin 2) * 2000 ≤ (i 0).val ∧ (i 0).val < win2_2.index t (0 : Fin 2) * 2000 + 2000
    rw [e0, ht]; omega
  | ⟨1, _⟩ =>
    show win2_2.index t (1 : Fin 2) * 64 ≤ (i 1).val ∧ (i 1).val < win2_2.index t (1 : Fin 2) * 64 + 64
    rw [e1]; omega

theorem covered_right (i : S70000x64.Idx) :
    ∃ t : Fin cfg2.N, (cfg2.win 3).flush t = true ∧ i ∈ ((cfg2.win 3).blk t).view.set := by
  have h0 : (i 0).val < 70000 := (i 0).isLt
  have h1 : (i 1).val < 64 := (i 1).isLt
  obtain ⟨t, ht⟩ : ∃ t : Fin cfg2.N, t.val = (i 0).val / 2000 :=
    ⟨⟨(i 0).val / 2000, by rw [show cfg2.N = 35 from N_2]; omega⟩, rfl⟩
  obtain ⟨-, -, -, -, -, -, e0, e1⟩ := index_facts t
  refine ⟨t, flush2_3 t, ?_⟩
  show i ∈ ((View.whole main_v27_1).slice (win2_3.rect t)).set
  rw [View.set_slice_whole, Rect.mem_set_unit]
  intro a
  match a with
  | ⟨0, _⟩ =>
    show win2_3.index t (0 : Fin 2) * 2000 ≤ (i 0).val ∧ (i 0).val < win2_3.index t (0 : Fin 2) * 2000 + 2000
    rw [e0, ht]; omega
  | ⟨1, _⟩ =>
    show win2_3.index t (1 : Fin 2) * 64 ≤ (i 1).val ∧ (i 1).val < win2_3.index t (1 : Fin 2) * 64 + 64
    rw [e1]; omega

/-- After the region the two result arrays are `left` and `right` of the arrays the region found. -/
theorem result_left (c : Dev nD) :
    (dat2 V c).arrAt 2 cfg2.N = left (V c main_v25) (V c main_v26) :=
  (dat2 V c).arrAt_eq_of_cover 2 _ (fun t _ => flushed_left V c t) covered_left

theorem result_right (c : Dev nD) :
    (dat2 V c).arrAt 3 cfg2.N = right (V c main_v25) (V c main_v26) :=
  (dat2 V c).arrAt_eq_of_cover 3 _ (fun t _ => flushed_right V c t) covered_right

end Cert.KernelIdeal.Project2

end
-- ==== Proof.Mean2.lean ====
/-
  The second layer's last step, as one function of whole arrays. The body at a grid point takes a block of 2000 rows of the
  aggregated messages, the same rows of the reciprocal-degree column and of the root term, and the bias vector, and
  stores  msg · inv + bias + root  on those rows. The 35 blocks tile the 70000 rows, so after the region the result
  array is that expression at every entry: entry (r, q) is  msg (r, q) · inv (r, 0) + bias q + root (r, q).
-/
import proofs.«428144_j62715112456263_4_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Mean2

open Cert.KernelIdeal Cert.KernelIdeal.Gen

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a <;> rfl

/-- Entry (r, q): the aggregated message scaled by row r's reciprocal degree, plus column q's bias, plus the root term. -/
def scaled (msg : FVec Ideal S70000x64 .f32) (inv : FVec Ideal S70000x1 .f32) (root : FVec Ideal S70000x64 .f32)
    (bias : FVec Ideal S64 .f32) : FVec Ideal S70000x64 .f32 :=
  fun i => msg i * inv (ix2 (⟨(i 0).val, (i 0).isLt⟩ : Fin 70000) (0 : Fin 1))
    + bias (ix1 (⟨(i 1).val, (i 1).isLt⟩ : Fin 64)) + root i

/-- The body's stored value at row p, column q of its block. -/
theorem stored_apply (x0 : Vec Ideal S2000x64 .f32) (x1 : Vec Ideal S2000x1 .f32) (x3 : Vec Ideal S64 .f32)
    (x2 : Vec Ideal S2000x64 .f32) (p : Fin 2000) (q : Fin 64) :
    k3_pay1 x0 x1 x3 x2 (ix2 p q) = x0 (ix2 p q) * x1 (ix2 p 0) + x3 (ix1 q) + x2 (ix2 p q) := by
  unfold k3_pay1
  simp only [shapeCast_self]
  show x0 (ix2 p q) * broadcastTo S2000x64 x1 broadcasts_S2000x1_S2000x64 (ix2 p q)
      + broadcastTo S2000x64 (shapeCast S1x64 x3 shapeCasts_S64_S1x64) broadcasts_S1x64_S2000x64 (ix2 p q)
      + x2 (ix2 p q) = _
  have e1 : broadcastTo S2000x64 x1 broadcasts_S2000x1_S2000x64 (ix2 p q) = x1 (ix2 p 0) :=
    broadcastTo_apply x1 _ (ix2 p q) (ix2 p 0) fun a => by
      match a with
      | ⟨0, _⟩ => rfl
      | ⟨1, _⟩ => rfl
  have e2 : broadcastTo S2000x64 (shapeCast S1x64 x3 shapeCasts_S64_S1x64) broadcasts_S1x64_S2000x64 (ix2 p q)
      = x3 (ix1 q) := by
    refine (broadcastTo_apply _ _ (ix2 p q) (ix2 (0 : Fin 1) q) fun a => by
      match a with
      | ⟨0, _⟩ => rfl
      | ⟨1, _⟩ => rfl).trans ?_
    exact shapeCast_apply x3 _ (ix2 (0 : Fin 1) q) (ix1 q) (by
      rw [Shape.rowMajor_val_one, Shape.rowMajor_val_two]; simp)
  rw [e1, e2]

/-- The printed index maps over the grid: every row-blocked window is at block t, the bias window at block 0. -/
theorem index_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 1) = 0
    ∧ win3_4.index t (0 : Fin 2) = t.val ∧ win3_4.index t (1 : Fin 2) = 0 :=
  (by decide +kernel : ∀ t : Fin grid3.N, _)

/-- What point t writes back is block t of `scaled` of the arrays the region found. -/
theorem flushed_eq (c : Dev nD) (t : Fin cfg3.N) :
    (dat3 V c).flushed 4 t = ((cfg3.win 4).blk t).view.read (Elt Ideal)
      (scaled (V c main_v37) (V c main_v12) (V c main_v27_1) (V c main_arg8)) := by
  show (cfg3.win 4).cut (grid3.coords t) ((dat3 V c).after 4 t) = _
  rw [after3_4]
  unfold out3_4
  rw [View.canon_unit_zero zero2]
  simp only [View.ld_unit_zero (S := S2000x64) zero2, View.ld_unit_zero (S := S2000x1) zero2, View.ld_unit_zero (S := S64) zero1]
  obtain ⟨a0, a1, b0, b1, c0, c1, d0, e0, e1⟩ := index_facts t
  funext j
  obtain ⟨p, q, rfl⟩ : ∃ (p : Fin 2000) (q : Fin 64), j = ix2 p q := ⟨j 0, j 1, eq_ix2 j⟩
  refine (stored_apply (iblk3 V c 0 t) (iblk3 V c 1 t) (iblk3 V c 3 t) (iblk3 V c 2 t) p q).trans ?_
  rw [View.read_apply]
  obtain ⟨i, hi⟩ : ∃ i : S70000x64.Idx, i = ((View.whole main_v38).slice ((win3 4).rect t)).emb (ix2 p q) := ⟨_, rfl⟩
  have hi0 : (i 0).val = t.val * 2000 + p.val := by
    rw [hi]; show win3_4.index t (0 : Fin 2) * 2000 + 1 * p.val = _; rw [e0]; omega
  have hi1 : (i 1).val = q.val := by
    rw [hi]; show win3_4.index t (1 : Fin 2) * 64 + 1 * q.val = _; rw [e1]; omega
  rw [← hi]
  have r0 : iblk3 V c 0 t (ix2 p q) = (V c main_v37 : FVec Ideal S70000x64 .f32) i := by
    unfold iblk3; rw [View.read_apply]
    show (V c main_v37 : FVec Ideal S70000x64 .f32) _ = _
    refine congrArg _ (funext fun a => Fin.ext ?_)
    match a with
    | ⟨0, _⟩ => show win3_0.index t (0 : Fin 2) * 2000 + 1 * p.val = (i 0).val; rw [a0, hi0]; omega
    | ⟨1, _⟩ => show win3_0.index t (1 : Fin 2) * 64 + 1 * q.val = (i 1).val; rw [a1, hi1]; omega
  have r1 : iblk3 V c 1 t (ix2 p 0) = (V c main_v12 : FVec Ideal S70000x1 .f32) (ix2 (⟨(i 0).val, (i 0).isLt⟩ : Fin 70000) (0 : Fin 1)) := by
    unfold iblk3; rw [View.read_apply]
    show (V c main_v12 : FVec Ideal S70000x1 .f32) _ = _
    refine congrArg _ (funext fun a => Fin.ext ?_)
    match a with
    | ⟨0, _⟩ => show win3_1.index t (0 : Fin 2) * 2000 + 1 * p.val = (i 0).val; rw [b0, hi0]; omega
    | ⟨1, _⟩ => show win3_1.index t (1 : Fin 2) * 1 + 1 * 0 = 0; rw [b1]
  have r2 : iblk3 V c 2 t (ix2 p q) = (V c main_v27_1 : FVec Ideal S70000x64 .f32) i := by
    unfold iblk3; rw [View.read_apply]
    show (V c main_v27_1 : FVec Ideal S70000x64 .f32) _ = _
    refine congrArg _ (funext fun a => Fin.ext ?_)
    match a with
    | ⟨0, _⟩ => show win3_2.index t (0 : Fin 2) * 2000 + 1 * p.val = (i 0).val; rw [c0, hi0]; omega
    | ⟨1, _⟩ => show win3_2.index t (1 : Fin 2) * 64 + 1 * q.val = (i 1).val; rw [c1, hi1]; omega
  have r3 : iblk3 V c 3 t (ix1 q) = (V c main_arg8 : FVec Ideal S64 .f32) (ix1 (⟨(i 1).val, (i 1).isLt⟩ : Fin 64)) := by
    unfold iblk3; rw [View.read_apply]
    show (V c main_arg8 : FVec Ideal S64 .f32) _ = _
    refine congrArg _ (funext fun a => Fin.ext ?_)
    match a with
    | ⟨0, _⟩ => show win3_3.index t (0 : Fin 1) * 64 + 1 * q.val = (i 1).val; rw [d0, hi1]; omega
  rw [r0, r1, r2, r3]
  rfl

/-- Row r lies in the block of point r / 2000. -/
theorem covered (i : S70000x64.Idx) :
    ∃ t : Fin cfg3.N, (cfg3.win 4).flush t = true ∧ i ∈ ((cfg3.win 4).blk t).view.set := by
  have h0 : (i 0).val < 70000 := (i 0).isLt
  have h1 : (i 1).val < 64 := (i 1).isLt
  obtain ⟨t, ht⟩ : ∃ t : Fin cfg3.N, t.val = (i 0).val / 2000 :=
    ⟨⟨(i 0).val / 2000, by rw [show cfg3.N = 35 from N_3]; omega⟩, rfl⟩
  obtain ⟨-, -, -, -, -, -, -, e0, e1⟩ := index_facts t
  refine ⟨t, flush3_4 t, ?_⟩
  show i ∈ ((View.whole main_v38).slice (win3_4.rect t)).set
  rw [View.set_slice_whole, Rect.mem_set_unit]
  intro a
  match a with
  | ⟨0, _⟩ =>
    show win3_4.index t (0 : Fin 2) * 2000 ≤ (i 0).val ∧ (i 0).val < win3_4.index t (0 : Fin 2) * 2000 + 2000
    rw [e0, ht]; omega
  | ⟨1, _⟩ =>
    show win3_4.index t (1 : Fin 2) * 64 ≤ (i 1).val ∧ (i 1).val < win3_4.index t (1 : Fin 2) * 64 + 64
    rw [e1]; omega

/-- After the region the result array is `scaled` of the arrays the region found. -/
theorem result (c : Dev nD) :
    (dat3 V c).arrAt 4 cfg3.N = scaled (V c main_v37) (V c main_v12) (V c main_v27_1) (V c main_arg8) :=
  (dat3 V c).arrAt_eq_of_cover 4 _ (fun t _ => flushed_eq V c t) covered

end Cert.KernelIdeal.Mean2

end
-- ==== Proof.Composite.lean ====
/-
  The program's result as ONE function of its argument arrays: two rounds of
  "project the node features by two weight matrices side by side; for every node sum the left projection's rows over the
  sources of the edges ending at it; scale that by one over the node's degree, add the bias and the right projection",
  the first round followed by the larger-of-zero.
-/
import proofs.«428144_j62715112456263_4_alg».proof.Proof.Graph
import proofs.«428144_j62715112456263_4_alg».proof.Proof.Project1
import proofs.«428144_j62715112456263_4_alg».proof.Proof.Mean1
import proofs.«428144_j62715112456263_4_alg».proof.Proof.Project2
import proofs.«428144_j62715112456263_4_alg».proof.Proof.Mean2

noncomputable section

open Idealize.ShloMosaic

namespace Cert.KernelIdeal.Composite

open Cert.KernelIdeal Cert.KernelIdeal.Graph

/-- The first round's output, a 70000 × 128 array. -/
def hidden (x : (⟨S70000x1044, .f32⟩ : BufTy).Contents (Elt Ideal)) (e : (⟨S2x500000, .i32⟩ : BufTy).Contents (Elt Ideal))
    (wl : (⟨S1044x128, .f32⟩ : BufTy).Contents (Elt Ideal)) (b : (⟨S128, .f32⟩ : BufTy).Contents (Elt Ideal))
    (wr : (⟨S1044x128, .f32⟩ : BufTy).Contents (Elt Ideal)) : (⟨S70000x128, .bf16⟩ : BufTy).Contents (Elt Ideal) :=
  Mean1.scaledPos (gathered128 (Project1.left x (beside1 wl wr)) (sources e) (targets e)) (recip (targets e))
    (Project1.right x (beside1 wl wr)) b

/-- The second round applied to the first round's output: the program's result. -/
def value (x : (⟨S70000x1044, .f32⟩ : BufTy).Contents (Elt Ideal)) (e : (⟨S2x500000, .i32⟩ : BufTy).Contents (Elt Ideal))
    (w1l : (⟨S1044x128, .f32⟩ : BufTy).Contents (Elt Ideal)) (b1 : (⟨S128, .f32⟩ : BufTy).Contents (Elt Ideal))
    (w1r : (⟨S1044x128, .f32⟩ : BufTy).Contents (Elt Ideal)) (w2l : (⟨S128x64, .f32⟩ : BufTy).Contents (Elt Ideal))
    (b2 : (⟨S64, .f32⟩ : BufTy).Contents (Elt Ideal)) (w2r : (⟨S128x64, .f32⟩ : BufTy).Contents (Elt Ideal)) :
    (⟨S70000x64, .f32⟩ : BufTy).Contents (Elt Ideal) :=
  Mean2.scaled (gathered64 (Project2.left (hidden x e w1l b1 w1r) (beside2 w2l w2r)) (sources e) (targets e))
    (recip (targets e)) (Project2.right (hidden x e w1l b1 w1r) (beside2 w2l w2r)) b2

end Cert.KernelIdeal.Composite

end
-- ==== Proof.Through.lean ====
/-
  The contents of the result buffer at the last segment boundary, read back to the argument arrays. Each boundary's
  contents is either "the host operations of a stretch applied to the previous boundary's contents" or "a region's arrays
  at what its write-backs leave, everything else as entered". A buffer a stretch does not write, and a buffer a region
  does not write back, is carried unchanged; a buffer a stretch writes is the stretch's operations of the buffers it
  reads; a region's result array is the region's whole-array function of its input arrays as entered. Walking from the
  launch memory forwards gives, boundary by boundary: the edge endpoints, the reciprocal-degree column and the first
  weights side by side; the first projection's two halves; the first segment sum; the first round's output; the second
  weights side by side; the second projection's two halves; the second segment sum; and the result.
-/
import proofs.«428144_j62715112456263_4_alg».proof.Proof.KernelRun
import proofs.«428144_j62715112456263_4_alg».proof.Proof.Composite
import Idealize.ShloMosaic.Lib.StableHlo.Run

set_option maxRecDepth 16384

noncomputable section

open Idealize.ShloMosaic Idealize.ShloMosaic.TcCoe Idealize.SL.Sem Idealize.ShloMosaic.StableHlo
open Idealize.ShloMosaic.Pipeline (Dat)

namespace Cert.KernelIdeal.Through

open Cert.KernelIdeal Cert.KernelIdeal.Gen Cert.KernelIdeal.Graph

variable (m : (ℓ : Loc nD τ sig) → Buf (Elt Ideal) ℓ) (ρ : Dev nD → PrngReg)

/-- No operation of a host stretch writes the buffer in question: each operation's one written buffer is another. -/
macro "not_written" : tactic => `(tactic| (
  refine List.forall_iff_forall_mem.mp ?_
  simp only [hostOps0, hostOps1, hostOps2, hostOps3, List.Forall, StableHlo.nullary_writes, StableHlo.unary_writes,
    StableHlo.binary_writes, StableHlo.ternary_writes, StableHlo.quaternary_writes, StableHlo.reshape_writes,
    StableHlo.binaryIndexed_writes, Finset.mem_singleton]
  repeat' apply And.intro
  all_goals exact StableHlo.devRef_ne_of_ne (by decide)))

/-! ## After the first stretch -/

theorem at1_sources (c : Dev nD) :
    W1 m ρ c (Proc.devRef .tc main_v1) = sources (m ((c : Thread nD τ).loc main_arg1)) := by
  show StableHlo.after hostOps0 (W0 m ρ c) (Proc.devRef .tc main_v1) = _
  after_results
  rfl

theorem at1_targets (c : Dev nD) :
    W1 m ρ c (Proc.devRef .tc main_v3) = targets (m ((c : Thread nD τ).loc main_arg1)) := by
  show StableHlo.after hostOps0 (W0 m ρ c) (Proc.devRef .tc main_v3) = _
  after_results
  rfl

theorem at1_recip (c : Dev nD) :
    W1 m ρ c (Proc.devRef .tc main_v12) = recip (targets (m ((c : Thread nD τ).loc main_arg1))) := by
  show StableHlo.after hostOps0 (W0 m ρ c) (Proc.devRef .tc main_v12) = _
  after_results
  rfl

theorem at1_weights (c : Dev nD) :
    W1 m ρ c (Proc.devRef .tc main_v13)
      = beside1 (m ((c : Thread nD τ).loc main_arg4)) (m ((c : Thread nD τ).loc main_arg6)) := by
  show StableHlo.after hostOps0 (W0 m ρ c) (Proc.devRef .tc main_v13) = _
  after_results
  rfl

theorem at1_features (c : Dev nD) :
    W1 m ρ c (Proc.devRef .tc main_arg0) = m ((c : Thread nD τ).loc main_arg0) :=
  StableHlo.after_of_forall_not_mem (b := Proc.devRef .tc main_arg0) _ _ (by not_written)

theorem at1_bias1 (c : Dev nD) :
    W1 m ρ c (Proc.devRef .tc main_arg5) = m ((c : Thread nD τ).loc main_arg5) :=
  StableHlo.after_of_forall_not_mem (b := Proc.devRef .tc main_arg5) _ _ (by not_written)

theorem at1_left2 (c : Dev nD) :
    W1 m ρ c (Proc.devRef .tc main_arg7) = m ((c : Thread nD τ).loc main_arg7) :=
  StableHlo.after_of_forall_not_mem (b := Proc.devRef .tc main_arg7) _ _ (by not_written)

theorem at1_bias2 (c : Dev nD) :
    W1 m ρ c (Proc.devRef .tc main_arg8) = m ((c : Thread nD τ).loc main_arg8) :=
  StableHlo.after_of_forall_not_mem (b := Proc.devRef .tc main_arg8) _ _ (by not_written)

theorem at1_right2 (c : Dev nD) :
    W1 m ρ c (Proc.devRef .tc main_arg9) = m ((c : Thread nD τ).loc main_arg9) :=
  StableHlo.after_of_forall_not_mem (b := Proc.devRef .tc main_arg9) _ _ (by not_written)

/-! ## After the first projection -/

theorem at2_left (c : Dev nD) :
    W2 m ρ c (Proc.devRef .tc main_v14_0)
      = Project1.left (m ((c : Thread nD τ).loc main_arg0))
          (beside1 (m ((c : Thread nD τ).loc main_arg4)) (m ((c : Thread nD τ).loc main_arg6))) := by
  refine (W2_arr m ρ c 2).trans ?_
  rw [Project1.result_left (V1 m ρ) c]
  show Project1.left (W1 m ρ c (Proc.devRef .tc main_arg0)) (W1 m ρ c (Proc.devRef .tc main_v13)) = _
  rw [at1_features, at1_weights]

theorem at2_right (c : Dev nD) :
    W2 m ρ c (Proc.devRef .tc main_v14_1)
      = Project1.right (m ((c : Thread nD τ).loc main_arg0))
          (beside1 (m ((c : Thread nD τ).loc main_arg4)) (m ((c : Thread nD τ).loc main_arg6))) := by
  refine (W2_arr m ρ c 3).trans ?_
  rw [Project1.result_right (V1 m ρ) c]
  show Project1.right (W1 m ρ c (Proc.devRef .tc main_arg0)) (W1 m ρ c (Proc.devRef .tc main_v13)) = _
  rw [at1_features, at1_weights]

theorem at2_sources (c : Dev nD) :
    W2 m ρ c (Proc.devRef .tc main_v1) = sources (m ((c : Thread nD τ).loc main_arg1)) :=
  (W2_of_ne m ρ c main_v1 (by decide)).trans (at1_sources m ρ c)

theorem at2_targets (c : Dev nD) :
    W2 m ρ c (Proc.devRef .tc main_v3) = targets (m ((c : Thread nD τ).loc main_arg1)) :=
  (W2_of_ne m ρ c main_v3 (by decide)).trans (at1_targets m ρ c)

theorem at2_recip (c : Dev nD) :
    W2 m ρ c (Proc.devRef .tc main_v12) = recip (targets (m ((c : Thread nD τ).loc main_arg1))) :=
  (W2_of_ne m ρ c main_v12 (by decide)).trans (at1_recip m ρ c)

theorem at2_bias1 (c : Dev nD) :
    W2 m ρ c (Proc.devRef .tc main_arg5) = m ((c : Thread nD τ).loc main_arg5) :=
  (W2_of_ne m ρ c main_arg5 (by decide)).trans (at1_bias1 m ρ c)

theorem at2_left2 (c : Dev nD) :
    W2 m ρ c (Proc.devRef .tc main_arg7) = m ((c : Thread nD τ).loc main_arg7) :=
  (W2_of_ne m ρ c main_arg7 (by decide)).trans (at1_left2 m ρ c)

theorem at2_bias2 (c : Dev nD) :
    W2 m ρ c (Proc.devRef .tc main_arg8) = m ((c : Thread nD τ).loc main_arg8) :=
  (W2_of_ne m ρ c main_arg8 (by decide)).trans (at1_bias2 m ρ c)

theorem at2_right2 (c : Dev nD) :
    W2 m ρ c (Proc.devRef .tc main_arg9) = m ((c : Thread nD τ).loc main_arg9) :=
  (W2_of_ne m ρ c main_arg9 (by decide)).trans (at1_right2 m ρ c)

/-! ## After the second stretch -/

theorem at3_sum (c : Dev nD) :
    W3 m ρ c (Proc.devRef .tc main_v24)
      = gathered128 (Project1.left (m ((c : Thread nD τ).loc main_arg0))
            (beside1 (m ((c : Thread nD τ).loc main_arg4)) (m ((c : Thread nD τ).loc main_arg6))))
          (sources (m ((c : Thread nD τ).loc main_arg1))) (targets (m ((c : Thread nD τ).loc main_arg1))) := by
  have h : W3 m ρ c (Proc.devRef .tc main_v24)
      = gathered128 (W2 m ρ c (Proc.devRef .tc main_v14_0)) (W2 m ρ c (Proc.devRef .tc main_v1))
          (W2 m ρ c (Proc.devRef .tc main_v3)) := by
    show StableHlo.after hostOps1 (W2 m ρ c) (Proc.devRef .tc main_v24) = _
    after_results
    rfl
  rw [h, at2_left, at2_sources, at2_targets]

theorem at3_recip (c : Dev nD) :
    W3 m ρ c (Proc.devRef .tc main_v12) = recip (targets (m ((c : Thread nD τ).loc main_arg1))) :=
  (StableHlo.after_of_forall_not_mem (b := Proc.devRef .tc main_v12) _ _ (by not_written)).trans (at2_recip m ρ c)

theorem at3_right (c : Dev nD) :
    W3 m ρ c (Proc.devRef .tc main_v14_1)
      = Project1.right (m ((c : Thread nD τ).loc main_arg0))
          (beside1 (m ((c : Thread nD τ).loc main_arg4)) (m ((c : Thread nD τ).loc main_arg6))) :=
  (StableHlo.after_of_forall_not_mem (b := Proc.devRef .tc main_v14_1) _ _ (by not_written)).trans (at2_right m ρ c)

theorem at3_bias1 (c : Dev nD) :
    W3 m ρ c (Proc.devRef .tc main_arg5) = m ((c : Thread nD τ).loc main_arg5) :=
  (StableHlo.after_of_forall_not_mem (b := Proc.devRef .tc main_arg5) _ _ (by not_written)).trans (at2_bias1 m ρ c)

theorem at3_sources (c : Dev nD) :
    W3 m ρ c (Proc.devRef .tc main_v1) = sources (m ((c : Thread nD τ).loc main_arg1)) :=
  (StableHlo.after_of_forall_not_mem (b := Proc.devRef .tc main_v1) _ _ (by not_written)).trans (at2_sources m ρ c)

theorem at3_targets (c : Dev nD) :
    W3 m ρ c (Proc.devRef .tc main_v3) = targets (m ((c : Thread nD τ).loc main_arg1)) :=
  (StableHlo.after_of_forall_not_mem (b := Proc.devRef .tc main_v3) _ _ (by not_written)).trans (at2_targets m ρ c)

theorem at3_left2 (c : Dev nD) :
    W3 m ρ c (Proc.devRef .tc main_arg7) = m ((c : Thread nD τ).loc main_arg7) :=
  (StableHlo.after_of_forall_not_mem (b := Proc.devRef .tc main_arg7) _ _ (by not_written)).trans (at2_left2 m ρ c)

theorem at3_bias2 (c : Dev nD) :
    W3 m ρ c (Proc.devRef .tc main_arg8) = m ((c : Thread nD τ).loc main_arg8) :=
  (StableHlo.after_of_forall_not_mem (b := Proc.devRef .tc main_arg8) _ _ (by not_written)).trans (at2_bias2 m ρ c)

theorem at3_right2 (c : Dev nD) :
    W3 m ρ c (Proc.devRef .tc main_arg9) = m ((c : Thread nD τ).loc main_arg9) :=
  (StableHlo.after_of_forall_not_mem (b := Proc.devRef .tc main_arg9) _ _ (by not_written)).trans (at2_right2 m ρ c)

/-! ## After the first round -/

theorem at4_hidden (c : Dev nD) :
    W4 m ρ c (Proc.devRef .tc main_v25)
      = Composite.hidden (m ((c : Thread nD τ).loc main_arg0)) (m ((c : Thread nD τ).loc main_arg1))
          (m ((c : Thread nD τ).loc main_arg4)) (m ((c : Thread nD τ).loc main_arg5)) (m ((c : Thread nD τ).loc main_arg6)) := by
  refine (W4_arr m ρ c 4).trans ?_
  rw [Mean1.result (V3 m ρ) c]
  show Mean1.scaledPos (W3 m ρ c (Proc.devRef .tc main_v24)) (W3 m ρ c (Proc.devRef .tc main_v12))
      (W3 m ρ c (Proc.devRef .tc main_v14_1)) (W3 m ρ c (Proc.devRef .tc main_arg5)) = _
  rw [at3_sum, at3_recip, at3_right, at3_bias1]
  rfl

theorem at4_sources (c : Dev nD) :
    W4 m ρ c (Proc.devRef .tc main_v1) = sources (m ((c : Thread nD τ).loc main_arg1)) :=
  (W4_of_ne m ρ c main_v1 (by decide)).trans (at3_sources m ρ c)

theorem at4_targets (c : Dev nD) :
    W4 m ρ c (Proc.devRef .tc main_v3) = targets (m ((c : Thread nD τ).loc main_arg1)) :=
  (W4_of_ne m ρ c main_v3 (by decide)).trans (at3_targets m ρ c)

/-- The reciprocal-degree column is an input of the region: its array ends as entered. -/
theorem at4_recip (c : Dev nD) :
    W4 m ρ c (Proc.devRef .tc main_v12) = recip (targets (m ((c : Thread nD τ).loc main_arg1))) :=
  ((W4_arr m ρ c 1).trans (((dat1 (V3 m ρ) c).arrAt_in 1 rfl _).trans (A_eq1 (V3 m ρ) c 1))).trans (at3_recip m ρ c)

theorem at4_left2 (c : Dev nD) :
    W4 m ρ c (Proc.devRef .tc main_arg7) = m ((c : Thread nD τ).loc main_arg7) :=
  (W4_of_ne m ρ c main_arg7 (by decide)).trans (at3_left2 m ρ c)

theorem at4_bias2 (c : Dev nD) :
    W4 m ρ c (Proc.devRef .tc main_arg8) = m ((c : Thread nD τ).loc main_arg8) :=
  (W4_of_ne m ρ c main_arg8 (by decide)).trans (at3_bias2 m ρ c)

theorem at4_right2 (c : Dev nD) :
    W4 m ρ c (Proc.devRef .tc main_arg9) = m ((c : Thread nD τ).loc main_arg9) :=
  (W4_of_ne m ρ c main_arg9 (by decide)).trans (at3_right2 m ρ c)

/-! ## After the third stretch -/

theorem at5_weights (c : Dev nD) :
    W5 m ρ c (Proc.devRef .tc main_v26)
      = beside2 (m ((c : Thread nD τ).loc main_arg7)) (m ((c : Thread nD τ).loc main_arg9)) := by
  have h : W5 m ρ c (Proc.devRef .tc main_v26)
      = beside2 (W4 m ρ c (Proc.devRef .tc main_arg7)) (W4 m ρ c (Proc.devRef .tc main_arg9)) := by
    show StableHlo.after hostOps2 (W4 m ρ c) (Proc.devRef .tc main_v26) = _
    after_results
    rfl
  rw [h, at4_left2, at4_right2]

theorem at5_hidden (c : Dev nD) :
    W5 m ρ c (Proc.devRef .tc main_v25)
      = Composite.hidden (m ((c : Thread nD τ).loc main_arg0)) (m ((c : Thread nD τ).loc main_arg1))
          (m ((c : Thread nD τ).loc main_arg4)) (m ((c : Thread nD τ).loc main_arg5)) (m ((c : Thread nD τ).loc main_arg6)) :=
  (StableHlo.after_of_forall_not_mem (b := Proc.devRef .tc main_v25) _ _ (by not_written)).trans (at4_hidden m ρ c)

theorem at5_sources (c : Dev nD) :
    W5 m ρ c (Proc.devRef .tc main_v1) = sources (m ((c : Thread nD τ).loc main_arg1)) :=
  (StableHlo.after_of_forall_not_mem (b := Proc.devRef .tc main_v1) _ _ (by not_written)).trans (at4_sources m ρ c)

theorem at5_targets (c : Dev nD) :
    W5 m ρ c (Proc.devRef .tc main_v3) = targets (m ((c : Thread nD τ).loc main_arg1)) :=
  (StableHlo.after_of_forall_not_mem (b := Proc.devRef .tc main_v3) _ _ (by not_written)).trans (at4_targets m ρ c)

theorem at5_recip (c : Dev nD) :
    W5 m ρ c (Proc.devRef .tc main_v12) = recip (targets (m ((c : Thread nD τ).loc main_arg1))) :=
  (StableHlo.after_of_forall_not_mem (b := Proc.devRef .tc main_v12) _ _ (by not_written)).trans (at4_recip m ρ c)

theorem at5_bias2 (c : Dev nD) :
    W5 m ρ c (Proc.devRef .tc main_arg8) = m ((c : Thread nD τ).loc main_arg8) :=
  (StableHlo.after_of_forall_not_mem (b := Proc.devRef .tc main_arg8) _ _ (by not_written)).trans (at4_bias2 m ρ c)

/-! ## After the second projection -/

theorem at6_left (c : Dev nD) :
    W6 m ρ c (Proc.devRef .tc main_v27_0)
      = Project2.left (Composite.hidden (m ((c : Thread nD τ).loc main_arg0)) (m ((c : Thread nD τ).loc main_arg1))
            (m ((c : Thread nD τ).loc main_arg4)) (m ((c : Thread nD τ).loc main_arg5)) (m ((c : Thread nD τ).loc main_arg6)))
          (beside2 (m ((c : Thread nD τ).loc main_arg7)) (m ((c : Thread nD τ).loc main_arg9))) := by
  refine (W6_arr m ρ c 2).trans ?_
  rw [Project2.result_left (V5 m ρ) c]
  show Project2.left (W5 m ρ c (Proc.devRef .tc main_v25)) (W5 m ρ c (Proc.devRef .tc main_v26)) = _
  rw [at5_hidden, at5_weights]

theorem at6_right (c : Dev nD) :
    W6 m ρ c (Proc.devRef .tc main_v27_1)
      = Project2.right (Composite.hidden (m ((c : Thread nD τ).loc main_arg0)) (m ((c : Thread nD τ).loc main_arg1))
            (m ((c : Thread nD τ).loc main_arg4)) (m ((c : Thread nD τ).loc main_arg5)) (m ((c : Thread nD τ).loc main_arg6)))
          (beside2 (m ((c : Thread nD τ).loc main_arg7)) (m ((c : Thread nD τ).loc main_arg9))) := by
  refine (W6_arr m ρ c 3).trans ?_
  rw [Project2.result_right (V5 m ρ) c]
  show Project2.right (W5 m ρ c (Proc.devRef .tc main_v25)) (W5 m ρ c (Proc.devRef .tc main_v26)) = _
  rw [at5_hidden, at5_weights]

theorem at6_sources (c : Dev nD) :
    W6 m ρ c (Proc.devRef .tc main_v1) = sources (m ((c : Thread nD τ).loc main_arg1)) :=
  (W6_of_ne m ρ c main_v1 (by decide)).trans (at5_sources m ρ c)

theorem at6_targets (c : Dev nD) :
    W6 m ρ c (Proc.devRef .tc main_v3) = targets (m ((c : Thread nD τ).loc main_arg1)) :=
  (W6_of_ne m ρ c main_v3 (by decide)).trans (at5_targets m ρ c)

theorem at6_recip (c : Dev nD) :
    W6 m ρ c (Proc.devRef .tc main_v12) = recip (targets (m ((c : Thread nD τ).loc main_arg1))) :=
  (W6_of_ne m ρ c main_v12 (by decide)).trans (at5_recip m ρ c)

theorem at6_bias2 (c : Dev nD) :
    W6 m ρ c (Proc.devRef .tc main_arg8) = m ((c : Thread nD τ).loc main_arg8) :=
  (W6_of_ne m ρ c main_arg8 (by decide)).trans (at5_bias2 m ρ c)

/-! ## After the fourth stretch -/

theorem at7_sum (c : Dev nD) :
    W7 m ρ c (Proc.devRef .tc main_v37)
      = gathered64 (Project2.left (Composite.hidden (m ((c : Thread nD τ).loc main_arg0)) (m ((c : Thread nD τ).loc main_arg1))
              (m ((c : Thread nD τ).loc main_arg4)) (m ((c : Thread nD τ).loc main_arg5)) (m ((c : Thread nD τ).loc main_arg6)))
            (beside2 (m ((c : Thread nD τ).loc main_arg7)) (m ((c : Thread nD τ).loc main_arg9))))
          (sources (m ((c : Thread nD τ).loc main_arg1))) (targets (m ((c : Thread nD τ).loc main_arg1))) := by
  have h : W7 m ρ c (Proc.devRef .tc main_v37)
      = gathered64 (W6 m ρ c (Proc.devRef .tc main_v27_0)) (W6 m ρ c (Proc.devRef .tc main_v1))
          (W6 m ρ c (Proc.devRef .tc main_v3)) := by
    show StableHlo.after hostOps3 (W6 m ρ c) (Proc.devRef .tc main_v37) = _
    after_results
    rfl
  rw [h, at6_left, at6_sources, at6_targets]

theorem at7_recip (c : Dev nD) :
    W7 m ρ c (Proc.devRef .tc main_v12) = recip (targets (m ((c : Thread nD τ).loc main_arg1))) :=
  (StableHlo.after_of_forall_not_mem (b := Proc.devRef .tc main_v12) _ _ (by not_written)).trans (at6_recip m ρ c)

theorem at7_right (c : Dev nD) :
    W7 m ρ c (Proc.devRef .tc main_v27_1)
      = Project2.right (Composite.hidden (m ((c : Thread nD τ).loc main_arg0)) (m ((c : Thread nD τ).loc main_arg1))
            (m ((c : Thread nD τ).loc main_arg4)) (m ((c : Thread nD τ).loc main_arg5)) (m ((c : Thread nD τ).loc main_arg6)))
          (beside2 (m ((c : Thread nD τ).loc main_arg7)) (m ((c : Thread nD τ).loc main_arg9))) :=
  (StableHlo.after_of_forall_not_mem (b := Proc.devRef .tc main_v27_1) _ _ (by not_written)).trans (at6_right m ρ c)

theorem at7_bias2 (c : Dev nD) :
    W7 m ρ c (Proc.devRef .tc main_arg8) = m ((c : Thread nD τ).loc main_arg8) :=
  (StableHlo.after_of_forall_not_mem (b := Proc.devRef .tc main_arg8) _ _ (by not_written)).trans (at6_bias2 m ρ c)

/-! ## The result -/

/-- The result buffer at the last boundary is the program's value of the argument arrays. -/
theorem result (c : Dev nD) :
    W8 m ρ c (Proc.devRef .tc main_v38)
      = Composite.value (m ((c : Thread nD τ).loc main_arg0)) (m ((c : Thread nD τ).loc main_arg1))
          (m ((c : Thread nD τ).loc main_arg4)) (m ((c : Thread nD τ).loc main_arg5)) (m ((c : Thread nD τ).loc main_arg6))
          (m ((c : Thread nD τ).loc main_arg7)) (m ((c : Thread nD τ).loc main_arg8)) (m ((c : Thread nD τ).loc main_arg9)) := by
  refine (W8_arr m ρ c 4).trans ?_
  rw [Mean2.result (V7 m ρ) c]
  show Mean2.scaled (W7 m ρ c (Proc.devRef .tc main_v37)) (W7 m ρ c (Proc.devRef .tc main_v12))
      (W7 m ρ c (Proc.devRef .tc main_v27_1)) (W7 m ρ c (Proc.devRef .tc main_arg8)) = _
  rw [at7_sum, at7_recip, at7_right, at7_bias2]
  rfl

/-- Every weakly fair execution ends with the result array at the program's value of the argument arrays, the
    arguments unchanged. -/
theorem run : θ_run defs (onTc (τ := τ) (main (F := Ideal))) ⟨m, fun _ => 0, ρ⟩ (fun r => ∀ c : Dev nD,
      r.2.mem ((c.tc : Thread nD τ).loc main_v38)
        = Composite.value (m ((c : Thread nD τ).loc main_arg0)) (m ((c : Thread nD τ).loc main_arg1))
            (m ((c : Thread nD τ).loc main_arg4)) (m ((c : Thread nD τ).loc main_arg5)) (m ((c : Thread nD τ).loc main_arg6))
            (m ((c : Thread nD τ).loc main_arg7)) (m ((c : Thread nD τ).loc main_arg8)) (m ((c : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (result m ρ c), (h c).2⟩) (Cert.KernelIdeal.Whole.run m ρ)

end Cert.KernelIdeal.Through

end
-- ==== Proof.BridgeDot.lean ====
/-
  The kernel multiplies the node features by two weight matrices put side by side and keeps the two column halves of the
  product; the reference multiplies by each matrix separately. Entry by entry the two are the same sum over the
  contracted coordinate k: entry (k, q) of the side-by-side matrix is the left matrix's (k, q) when q is below the left
  matrix's width and the right matrix's (k, q − width) otherwise, so the terms agree one by one. The first layer puts two
  1044 × 128 matrices side by side, the second two 128 × 64 ones.
-/
import proofs.«428144_j62715112456263_4_alg».proof.Proof.Composite
import proofs.«428144_j62715112456263_4_alg».proof.Proof.Gen.ReferenceIdeal.Read
import Idealize.ShloMosaic.Lib.Pipeline.Value
import Idealize.ShloMosaic.Lib.ValueIdx

noncomputable section

open scoped BigOperators
open Idealize.ShloMosaic Idealize.ShloMosaic.ValueIdx

namespace Cert.Bridge.Dot

/-- Entry (r, q) of the first layer's left half-product is  Σ_k x (r, k) · wl (k, q):  column q < 128 of the side-by-side
    matrix is column q of the left matrix. -/
theorem left1_eq (x : (⟨Cert.KernelIdeal.S70000x1044, .f32⟩ : BufTy).Contents (Elt Ideal))
    (wl wr : (⟨Cert.KernelIdeal.S1044x128, .f32⟩ : BufTy).Contents (Elt Ideal)) :
    Cert.KernelIdeal.Project1.left x (Cert.KernelIdeal.Graph.beside1 wl wr)
      = Cert.ReferenceIdeal.Read.val_main_v4 (F := Ideal) x wl := by
  funext i
  refine Eq.trans ?_ (Cert.ReferenceIdeal.Read.val_main_v4_apply x wl i).symm
  unfold Cert.KernelIdeal.Project1.left
  refine Finset.sum_congr rfl fun k _ => ?_
  have e1 : (ix2 (⟨(i 0).val, (i 0).isLt⟩ : Fin 70000) k : Cert.KernelIdeal.S70000x1044.Idx)
      = Cert.ReferenceIdeal.Read.lidx_main_v4 i k :=
    funext fun a => match a with | ⟨0, _⟩ => rfl | ⟨1, _⟩ => rfl
  have e2 : Cert.KernelIdeal.Graph.beside1 wl wr
        (ix2 k (⟨(i 1).val, Nat.lt_trans (i 1).isLt (by decide : (128 : Nat) < 256)⟩ : Fin 256))
      = wl (Cert.ReferenceIdeal.Read.ridx_main_v4 i k) := by
    unfold Cert.KernelIdeal.Graph.beside1
    exact concatenate_pair_apply_left (t := Cert.KernelIdeal.S1044x256) (s₁ := Cert.KernelIdeal.S1044x128)
      (s₂ := Cert.KernelIdeal.S1044x128) 1 wl wr _
      (ix2 k (⟨(i 1).val, Nat.lt_trans (i 1).isLt (by decide : (128 : Nat) < 256)⟩ : Fin 256)) rfl
      (Cert.ReferenceIdeal.Read.ridx_main_v4 i k) (fun b => match b with | ⟨0, _⟩ => rfl | ⟨1, _⟩ => rfl)
  rw [e1, e2]

/-- Entry (r, q) of the first layer's right half-product is  Σ_k x (r, k) · wr (k, q):  column q + 128 of the side-by-side
    matrix is column q of the right matrix. -/
theorem right1_eq (x : (⟨Cert.KernelIdeal.S70000x1044, .f32⟩ : BufTy).Contents (Elt Ideal))
    (wl wr : (⟨Cert.KernelIdeal.S1044x128, .f32⟩ : BufTy).Contents (Elt Ideal)) :
    Cert.KernelIdeal.Project1.right x (Cert.KernelIdeal.Graph.beside1 wl wr)
      = Cert.ReferenceIdeal.Read.val_main_v27 (F := Ideal) x wr := by
  funext i
  refine Eq.trans ?_ (Cert.ReferenceIdeal.Read.val_main_v27_apply x wr i).symm
  unfold Cert.KernelIdeal.Project1.right
  refine Finset.sum_congr rfl fun k _ => ?_
  have e1 : (ix2 (⟨(i 0).val, (i 0).isLt⟩ : Fin 70000) k : Cert.KernelIdeal.S70000x1044.Idx)
      = Cert.ReferenceIdeal.Read.lidx_main_v27 i k :=
    funext fun a => match a with | ⟨0, _⟩ => rfl | ⟨1, _⟩ => rfl
  have e2 : Cert.KernelIdeal.Graph.beside1 wl wr
        (ix2 k (⟨(i 1).val + 128, Nat.add_lt_add_right (i 1).isLt 128⟩ : Fin 256))
      = wr (Cert.ReferenceIdeal.Read.ridx_main_v27 i k) := by
    unfold Cert.KernelIdeal.Graph.beside1
    exact concatenate_pair_apply_right (t := Cert.KernelIdeal.S1044x256) (s₁ := Cert.KernelIdeal.S1044x128)
      (s₂ := Cert.KernelIdeal.S1044x128) 1 wl wr _
      (ix2 k (⟨(i 1).val + 128, Nat.add_lt_add_right (i 1).isLt 128⟩ : Fin 256)) rfl rfl
      (Cert.ReferenceIdeal.Read.ridx_main_v27 i k)
      (fun b hb => match b, hb with | ⟨0, _⟩, _ => rfl | ⟨1, _⟩, hb => absurd rfl hb) rfl
  rw [e1, e2]

/-- The reference's second-layer product read at an index: entry (r, q) is  Σ_k y (r, k) · w (k, q). -/
theorem dot2_apply (y : (⟨Cert.ReferenceIdeal.S70000x128, .f32⟩ : BufTy).Contents (Elt Ideal))
    (w : (⟨Cert.ReferenceIdeal.S128x64, .f32⟩ : BufTy).Contents (Elt Ideal)) (i : Cert.ReferenceIdeal.S70000x64.Idx) :
    Host.dotGeneral (F := Ideal) (φ₁ := .f32) (φ₂ := .f32) Cert.ReferenceIdeal.dot_S70000x128_S128x64_S70000x64_1_0_0_1_n_n none y w i
      = ∑ k : Fin 128, y (Cert.ReferenceIdeal.Read.lidx_main_v30 i k) * w (Cert.ReferenceIdeal.Read.ridx_main_v30 i k) := by
  simp only [Host.dotGeneral]
  rw [Ideal.dotGeneral_apply, ← Equiv.sum_comp (ValueIdx.contrEquiv1 Cert.ReferenceIdeal.dot_S70000x128_S128x64_S70000x64_1_0_0_1_n_n 128 rfl rfl).symm]
  refine Finset.sum_congr rfl fun k _ => ?_
  have hk := ValueIdx.contrEquiv1_symm_val Cert.ReferenceIdeal.dot_S70000x128_S128x64_S70000x64_1_0_0_1_n_n 128 rfl rfl k
  have el : Cert.ReferenceIdeal.dot_S70000x128_S128x64_S70000x64_1_0_0_1_n_n.lhsIdx i
      ((ValueIdx.contrEquiv1 Cert.ReferenceIdeal.dot_S70000x128_S128x64_S70000x64_1_0_0_1_n_n 128 rfl rfl).symm k)
      = Cert.ReferenceIdeal.Read.lidx_main_v30 i k := funext fun a => Fin.ext (by
    match a with
    | ⟨0, _⟩ => exact Cert.ReferenceIdeal.Read.lhs_main_v30_0 _ _
    | ⟨1, _⟩ => exact (Cert.ReferenceIdeal.Read.lhs_main_v30_1 _ _).trans hk)
  have er : Cert.ReferenceIdeal.dot_S70000x128_S128x64_S70000x64_1_0_0_1_n_n.rhsIdx i
      ((ValueIdx.contrEquiv1 Cert.ReferenceIdeal.dot_S70000x128_S128x64_S70000x64_1_0_0_1_n_n 128 rfl rfl).symm k)
      = Cert.ReferenceIdeal.Read.ridx_main_v30 i k := funext fun a => Fin.ext (by
    match a with
    | ⟨0, _⟩ => exact (Cert.ReferenceIdeal.Read.rhs_main_v30_0 _ _).trans hk
    | ⟨1, _⟩ => exact Cert.ReferenceIdeal.Read.rhs_main_v30_1 _ _)
  rw [el, er]

/-- Entry (r, q) of the second layer's left half-product is  Σ_k y (r, k) · wl (k, q):  column q < 64 of the side-by-side
    matrix is column q of the left matrix. -/
theorem left2_eq (y : (⟨Cert.KernelIdeal.S70000x128, .f32⟩ : BufTy).Contents (Elt Ideal))
    (wl wr : (⟨Cert.KernelIdeal.S128x64, .f32⟩ : BufTy).Contents (Elt Ideal)) :
    Cert.KernelIdeal.Project2.left y (Cert.KernelIdeal.Graph.beside2 wl wr)
      = Host.dotGeneral (F := Ideal) (φ₁ := .f32) (φ₂ := .f32) Cert.ReferenceIdeal.dot_S70000x128_S128x64_S70000x64_1_0_0_1_n_n none y wl := by
  funext i
  refine Eq.trans ?_ (dot2_apply y wl i).symm
  unfold Cert.KernelIdeal.Project2.left
  refine Finset.sum_congr rfl fun k _ => ?_
  have e1 : (ix2 (⟨(i 0).val, (i 0).isLt⟩ : Fin 70000) k : Cert.KernelIdeal.S70000x128.Idx)
      = Cert.ReferenceIdeal.Read.lidx_main_v30 i k :=
    funext fun a => match a with | ⟨0, _⟩ => rfl | ⟨1, _⟩ => rfl
  have e2 : Cert.KernelIdeal.Graph.beside2 wl wr
        (ix2 k (⟨(i 1).val, Nat.lt_trans (i 1).isLt (by decide : (64 : Nat) < 128)⟩ : Fin 128))
      = wl (Cert.ReferenceIdeal.Read.ridx_main_v30 i k) := by
    unfold Cert.KernelIdeal.Graph.beside2
    exact concatenate_pair_apply_left (t := Cert.KernelIdeal.S128x128) (s₁ := Cert.KernelIdeal.S128x64)
      (s₂ := Cert.KernelIdeal.S128x64) 1 wl wr _
      (ix2 k (⟨(i 1).val, Nat.lt_trans (i 1).isLt (by decide : (64 : Nat) < 128)⟩ : Fin 128)) rfl
      (Cert.ReferenceIdeal.Read.ridx_main_v30 i k) (fun b => match b with | ⟨0, _⟩ => rfl | ⟨1, _⟩ => rfl)
  rw [e1, e2]

/-- Entry (r, q) of the second layer's right half-product is  Σ_k y (r, k) · wr (k, q):  column q + 64 of the side-by-side
    matrix is column q of the right matrix. -/
theorem right2_eq (y : (⟨Cert.KernelIdeal.S70000x128, .f32⟩ : BufTy).Contents (Elt Ideal))
    (wl wr : (⟨Cert.KernelIdeal.S128x64, .f32⟩ : BufTy).Contents (Elt Ideal)) :
    Cert.KernelIdeal.Project2.right y (Cert.KernelIdeal.Graph.beside2 wl wr)
      = Host.dotGeneral (F := Ideal) (φ₁ := .f32) (φ₂ := .f32) Cert.ReferenceIdeal.dot_S70000x128_S128x64_S70000x64_1_0_0_1_n_n none y wr := by
  funext i
  refine Eq.trans ?_ (dot2_apply y wr i).symm
  unfold Cert.KernelIdeal.Project2.right
  refine Finset.sum_congr rfl fun k _ => ?_
  have e1 : (ix2 (⟨(i 0).val, (i 0).isLt⟩ : Fin 70000) k : Cert.KernelIdeal.S70000x128.Idx)
      = Cert.ReferenceIdeal.Read.lidx_main_v30 i k :=
    funext fun a => match a with | ⟨0, _⟩ => rfl | ⟨1, _⟩ => rfl
  have e2 : Cert.KernelIdeal.Graph.beside2 wl wr
        (ix2 k (⟨(i 1).val + 64, Nat.add_lt_add_right (i 1).isLt 64⟩ : Fin 128))
      = wr (Cert.ReferenceIdeal.Read.ridx_main_v30 i k) := by
    unfold Cert.KernelIdeal.Graph.beside2
    exact concatenate_pair_apply_right (t := Cert.KernelIdeal.S128x128) (s₁ := Cert.KernelIdeal.S128x64)
      (s₂ := Cert.KernelIdeal.S128x64) 1 wl wr _
      (ix2 k (⟨(i 1).val + 64, Nat.add_lt_add_right (i 1).isLt 64⟩ : Fin 128)) rfl rfl
      (Cert.ReferenceIdeal.Read.ridx_main_v30 i k)
      (fun b hb => match b, hb with | ⟨0, _⟩, _ => rfl | ⟨1, _⟩, hb => absurd rfl hb) rfl
  rw [e1, e2]

end Cert.Bridge.Dot

end
-- ==== Proof.BridgeMean.lean ====
/-
  The scaled mean, two ways. The program multiplies a node's summed messages by the reciprocal of the node's degree; the
  reference divides them by the degree. The degree is the larger of one and a count, so it is at least one, in particular
  not zero, and over the extended reals a quotient by a nonzero d is the product with d's inverse: a · (1 / d) = a / d
  whatever a is. The bias and the root term are added in the same order on both sides, and the larger-of-zero is taken of
  the same sum. So each round's output is the same function of (messages, edge list, root term, bias) on both sides.
-/
import proofs.«428144_j62715112456263_4_alg».proof.Proof.Composite
import proofs.«428144_j62715112456263_4_alg».proof.Proof.Gen.ReferenceIdeal.Read
import Idealize.ShloMosaic.Lib.Pipeline.Value
import Idealize.ShloMosaic.Lib.ValueIdx

set_option maxRecDepth 16384

noncomputable section

open Idealize.ShloMosaic Idealize.ShloMosaic.ValueIdx

namespace Cert.Bridge.Mean

/-- The word 0x3F800000 denotes the real number one. -/
theorem one_word : Ideal.ofBits .f32 0x3F800000#32 = 1 := by
  simp [Ideal.ofBits, Ideal.ieee, -EReal.coe_mul]; norm_num

/-- The product with the reciprocal of a number that is at least one is the quotient by it. -/
theorem scale_eq (a d : EReal) (hd : (1 : EReal) ≤ d) : a * Ideal.div 1 d = Ideal.div a d := by
  have h0 : d ≠ 0 := fun h => by
    rw [h] at hd
    exact absurd hd (by norm_num)
  unfold Ideal.div
  rw [if_neg h0, if_neg h0, one_mul]

/-- The host's quotient of two arrays, at an entry. -/
theorem quotient_apply {s : Shape} {φ : FTy} (a b : FVec Ideal s φ) (j : s.Idx) : Host.divf a b j = Ideal.div (a j) (b j) := rfl

/-- A scalar spread over an array, at an entry. -/
theorem spread_apply {s : Shape} (h : (⟨0, ![]⟩ : Shape).BroadcastsInDim s ![]) (z : FVec Ideal ⟨0, ![]⟩ .f32) (j : s.Idx) :
    broadcastInDim s ![] h z j = z ix0 :=
  broadcastInDim_apply _ h z j ix0 (fun a => a.elim0)

/-- The degree column is the reference's degree vector (the same operations of the edge list), in either round. -/
theorem degree_eq (e : (⟨Cert.KernelIdeal.S2x500000, .i32⟩ : BufTy).Contents (Elt Ideal)) :
    Cert.KernelIdeal.Graph.degree (Cert.KernelIdeal.Graph.targets e) = Cert.ReferenceIdeal.Read.val_main_v20 (F := Ideal) e := rfl

theorem degree_eq' (e : (⟨Cert.KernelIdeal.S2x500000, .i32⟩ : BufTy).Contents (Elt Ideal)) :
    Cert.KernelIdeal.Graph.degree (Cert.KernelIdeal.Graph.targets e) = Cert.ReferenceIdeal.Read.val_main_v46 (F := Ideal) e := rfl

/-- A node's degree is at least one. -/
theorem one_le_degree (d : (⟨Cert.KernelIdeal.S500000, .i32⟩ : BufTy).Contents (Elt Ideal)) (j : Cert.KernelIdeal.S70000.Idx) :
    (1 : EReal) ≤ Cert.KernelIdeal.Graph.degree d j := by
  unfold Cert.KernelIdeal.Graph.degree
  rw [maximumf_apply, spread_apply, constant_apply, one_word]
  exact le_max_right _ _

/-- Row r of the reciprocal column is one over row r's degree. -/
theorem recip_apply (d : (⟨Cert.KernelIdeal.S500000, .i32⟩ : BufTy).Contents (Elt Ideal)) (r : Fin 70000) :
    Cert.KernelIdeal.Graph.recip d (ix2 r (0 : Fin 1)) = Ideal.div 1 (Cert.KernelIdeal.Graph.degree d (ix1 r)) := by
  unfold Cert.KernelIdeal.Graph.recip
  refine (broadcastInDim_apply _ _ _ (ix2 r (0 : Fin 1)) (ix1 r) fun a => ?_).trans ?_
  · match a with
    | ⟨0, _⟩ => show r.val = if (70000 : Nat) = 1 then 0 else r.val; rw [if_neg (by decide)]
  rw [quotient_apply, spread_apply, constant_apply, one_word]

/-- The first round's expression at an entry. -/
theorem scaledPos_apply (msg : FVec Ideal Cert.KernelIdeal.S70000x128 .f32) (inv : FVec Ideal Cert.KernelIdeal.S70000x1 .f32)
    (root : FVec Ideal Cert.KernelIdeal.S70000x128 .f32) (b : FVec Ideal Cert.KernelIdeal.S128 .f32)
    (i : Cert.KernelIdeal.S70000x128.Idx) :
    Cert.KernelIdeal.Mean1.scaledPos msg inv root b i
      = max (msg i * inv (ix2 (⟨(i 0).val, idx2_lt0 i⟩ : Fin 70000) (0 : Fin 1))
          + b (ix1 (⟨(i 1).val, idx2_lt1 i⟩ : Fin 128)) + root i) (Ideal.ofBits .f32 0x00000000#32) := rfl

/-- The second round's expression at an entry. -/
theorem scaled_apply (msg : FVec Ideal Cert.KernelIdeal.S70000x64 .f32) (inv : FVec Ideal Cert.KernelIdeal.S70000x1 .f32)
    (root : FVec Ideal Cert.KernelIdeal.S70000x64 .f32) (b : FVec Ideal Cert.KernelIdeal.S64 .f32)
    (i : Cert.KernelIdeal.S70000x64.Idx) :
    Cert.KernelIdeal.Mean2.scaled msg inv root b i
      = msg i * inv (ix2 (⟨(i 0).val, idx2_lt0 i⟩ : Fin 70000) (0 : Fin 1))
          + b (ix1 (⟨(i 1).val, idx2_lt1 i⟩ : Fin 64)) + root i := rfl

/-- The first round's output, from (messages, edge list, root term, bias), is the reference's. -/
theorem round1_eq (msg : (⟨Cert.KernelIdeal.S70000x128, .f32⟩ : BufTy).Contents (Elt Ideal))
    (e : (⟨Cert.KernelIdeal.S2x500000, .i32⟩ : BufTy).Contents (Elt Ideal))
    (root : (⟨Cert.KernelIdeal.S70000x128, .f32⟩ : BufTy).Contents (Elt Ideal))
    (b : (⟨Cert.KernelIdeal.S128, .f32⟩ : BufTy).Contents (Elt Ideal)) :
    Cert.KernelIdeal.Mean1.scaledPos msg (Cert.KernelIdeal.Graph.recip (Cert.KernelIdeal.Graph.targets e)) root b
      = maximumf (addf (addf (Host.divf (F := Ideal) (φ := .f32) msg (Cert.ReferenceIdeal.Read.val_main_v22 (F := Ideal) e))
          (Cert.ReferenceIdeal.Read.val_main_v25 (F := Ideal) b)) root) (Cert.ReferenceIdeal.Read.val_main_call0_v0 (F := Ideal)) := by
  funext i
  have hrow : Cert.ReferenceIdeal.Read.idx_main_v21 (Cert.ReferenceIdeal.Read.idx_main_v22 i)
      = ix1 (⟨(i 0).val, idx2_lt0 i⟩ : Fin 70000) := funext fun a => match a with | ⟨0, _⟩ => rfl
  have hcol : Cert.ReferenceIdeal.Read.idx_main_v24 (Cert.ReferenceIdeal.Read.idx_main_v25 i)
      = ix1 (⟨(i 1).val, idx2_lt1 i⟩ : Fin 128) := funext fun a => match a with | ⟨0, _⟩ => rfl
  rw [scaledPos_apply, maximumf_apply, addf_apply, addf_apply, quotient_apply,
    Cert.ReferenceIdeal.Read.val_main_v22_apply, Cert.ReferenceIdeal.Read.val_main_v21_apply,
    Cert.ReferenceIdeal.Read.val_main_v25_apply, Cert.ReferenceIdeal.Read.val_main_v24_apply,
    Cert.ReferenceIdeal.Read.val_main_call0_v0_apply, Cert.ReferenceIdeal.Read.val_main_call0_cst_apply,
    hrow, hcol, ← degree_eq, recip_apply, scale_eq _ _ (one_le_degree _ _)]
  rfl

/-- The second round's output, from (messages, edge list, root term, bias), is the reference's. -/
theorem round2_eq (msg : (⟨Cert.KernelIdeal.S70000x64, .f32⟩ : BufTy).Contents (Elt Ideal))
    (e : (⟨Cert.KernelIdeal.S2x500000, .i32⟩ : BufTy).Contents (Elt Ideal))
    (root : (⟨Cert.KernelIdeal.S70000x64, .f32⟩ : BufTy).Contents (Elt Ideal))
    (b : (⟨Cert.KernelIdeal.S64, .f32⟩ : BufTy).Contents (Elt Ideal)) :
    Cert.KernelIdeal.Mean2.scaled msg (Cert.KernelIdeal.Graph.recip (Cert.KernelIdeal.Graph.targets e)) root b
      = addf (addf (Host.divf (F := Ideal) (φ := .f32) msg (Cert.ReferenceIdeal.Read.val_main_v48 (F := Ideal) e))
          (Cert.ReferenceIdeal.Read.val_main_v51 (F := Ideal) b)) root := by
  funext i
  have hrow : Cert.ReferenceIdeal.Read.idx_main_v47 (Cert.ReferenceIdeal.Read.idx_main_v48 i)
      = ix1 (⟨(i 0).val, idx2_lt0 i⟩ : Fin 70000) := funext fun a => match a with | ⟨0, _⟩ => rfl
  have hcol : Cert.ReferenceIdeal.Read.idx_main_v50 (Cert.ReferenceIdeal.Read.idx_main_v51 i)
      = ix1 (⟨(i 1).val, idx2_lt1 i⟩ : Fin 64) := funext fun a => match a with | ⟨0, _⟩ => rfl
  rw [scaled_apply, addf_apply, addf_apply, quotient_apply,
    Cert.ReferenceIdeal.Read.val_main_v48_apply, Cert.ReferenceIdeal.Read.val_main_v47_apply,
    Cert.ReferenceIdeal.Read.val_main_v51_apply, Cert.ReferenceIdeal.Read.val_main_v50_apply,
    hrow, hcol, ← degree_eq', recip_apply, scale_eq _ _ (one_le_degree _ _)]

end Cert.Bridge.Mean

end
-- ==== Proof.Bridge.lean ====
/-
  The program's value and the reference's value are one function of the argument arrays. Round by round: the two halves of
  the product with the weights side by side are the two separate products; the segment sum is the same host operations
  of the same projection and the same edge list; the scaled mean with bias, root term and (in the first round) the
  larger-of-zero agrees by "a · (1 / d) = a / d for d at least one".
-/
import proofs.«428144_j62715112456263_4_alg».proof.Proof.BridgeDot
import proofs.«428144_j62715112456263_4_alg».proof.Proof.BridgeMean

noncomputable section

open Idealize.ShloMosaic

namespace Cert.Bridge

/-- The first round's output is the reference's first-round output. -/
theorem hidden_eq (x : (⟨Cert.KernelIdeal.S70000x1044, .f32⟩ : BufTy).Contents (Elt Ideal))
    (e : (⟨Cert.KernelIdeal.S2x500000, .i32⟩ : BufTy).Contents (Elt Ideal))
    (wl : (⟨Cert.KernelIdeal.S1044x128, .f32⟩ : BufTy).Contents (Elt Ideal))
    (b : (⟨Cert.KernelIdeal.S128, .f32⟩ : BufTy).Contents (Elt Ideal))
    (wr : (⟨Cert.KernelIdeal.S1044x128, .f32⟩ : BufTy).Contents (Elt Ideal)) :
    Cert.KernelIdeal.Composite.hidden x e wl b wr = Cert.ReferenceIdeal.Read.val_main_v29 (F := Ideal) x e wl b wr := by
  unfold Cert.KernelIdeal.Composite.hidden
  rw [Dot.left1_eq, Dot.right1_eq, Mean.round1_eq]
  rfl

/-- The program's value is the reference's result. -/
theorem value_eq (x : (⟨Cert.KernelIdeal.S70000x1044, .f32⟩ : BufTy).Contents (Elt Ideal))
    (e : (⟨Cert.KernelIdeal.S2x500000, .i32⟩ : BufTy).Contents (Elt Ideal))
    (w1l : (⟨Cert.KernelIdeal.S1044x128, .f32⟩ : BufTy).Contents (Elt Ideal))
    (b1 : (⟨Cert.KernelIdeal.S128, .f32⟩ : BufTy).Contents (Elt Ideal))
    (w1r : (⟨Cert.KernelIdeal.S1044x128, .f32⟩ : BufTy).Contents (Elt Ideal))
    (w2l : (⟨Cert.KernelIdeal.S128x64, .f32⟩ : BufTy).Contents (Elt Ideal))
    (b2 : (⟨Cert.KernelIdeal.S64, .f32⟩ : BufTy).Contents (Elt Ideal))
    (w2r : (⟨Cert.KernelIdeal.S128x64, .f32⟩ : BufTy).Contents (Elt Ideal)) :
    Cert.KernelIdeal.Composite.value x e w1l b1 w1r w2l b2 w2r
      = Cert.ReferenceIdeal.Read.val_main_v54 (F := Ideal) x e w1l b1 w1r w2l b2 w2r := by
  unfold Cert.KernelIdeal.Composite.value
  rw [hidden_eq, Dot.left2_eq, Dot.right2_eq, Mean.round2_eq]
  rfl

end Cert.Bridge

end
-- ==== Proof.lean ====
/-
  A two-round graph network that averages neighbours: in each round a node's new feature vector is the mean, over the
  edges ending at it, of the left projection of the source nodes' features, plus a bias, plus the right projection of
  its own features; between the rounds the larger of that and zero is taken.

  The program computes a round as: one matrix product with the two weight matrices side by side, stored as its two column
  halves (a region); a row gather and a scatter-add on the host (the segment sum); then  sum · (1 / degree) + bias + right
  half  (a region). The reference computes the two products separately and divides the segment sum by the degree.
  Over the extended reals the two agree entry by entry: the halves of the side-by-side product are the separate products
  (the same sum over the contracted coordinate, term by term); the degree is at least one, so multiplying by its
  reciprocal is dividing by it; changes of float format are the identity; everything else is the same host operations
  of equal operands. No law that needs finite inputs is used.

  The modules: the four regions' whole-array values (Project1, Mean1, Project2, Mean2, each from "what a grid point writes
  back is its block of one function" and "the blocks cover the array"); the host-side functions of the edge list (Graph)
  and the program's value as one function (Composite); the launch with the result's final contents in its post
  (KernelRun) and those contents read back to the arguments (Through); the program's value against the reference's
  (BridgeDot, BridgeMean, Bridge). The frames are the generated ones; the reference's run and its stage-by-stage reading
  are the generated ones.
-/
import proofs.«428144_j62715112456263_4_alg».proof.Defs
import proofs.«428144_j62715112456263_4_alg».proof.Proof.Gen.Kernel
import proofs.«428144_j62715112456263_4_alg».proof.Proof.Gen.Kernel.Skeleton
import proofs.«428144_j62715112456263_4_alg».proof.Proof.Gen.Kernel.Launch
import proofs.«428144_j62715112456263_4_alg».proof.Proof.Gen.Kernel.Points
import proofs.«428144_j62715112456263_4_alg».proof.Proof.Gen.Kernel.Frame
import proofs.«428144_j62715112456263_4_alg».proof.Proof.Gen.KernelIdeal
import proofs.«428144_j62715112456263_4_alg».proof.Proof.Gen.KernelIdeal.Skeleton
import proofs.«428144_j62715112456263_4_alg».proof.Proof.Gen.KernelIdeal.Launch
import proofs.«428144_j62715112456263_4_alg».proof.Proof.Gen.KernelIdeal.Points
import proofs.«428144_j62715112456263_4_alg».proof.Proof.Gen.KernelIdeal.Frame
import proofs.«428144_j62715112456263_4_alg».proof.Proof.Gen.ReferenceIdeal
import proofs.«428144_j62715112456263_4_alg».proof.Proof.Gen.ReferenceIdeal.Run
import proofs.«428144_j62715112456263_4_alg».proof.Proof.Gen.ReferenceIdeal.Read
import proofs.«428144_j62715112456263_4_alg».proof.Proof.Gen.Pre_finite_inputs
import proofs.«428144_j62715112456263_4_alg».proof.Proof.Through
import proofs.«428144_j62715112456263_4_alg».proof.Proof.Bridge
import Idealize.ShloMosaic.Adequacy
import Idealize.ShloMosaic.Init

noncomputable section

namespace Cert.Proof

open Idealize.ShloMosaic Idealize.SL.Sem

/-- The program as printed terminates without a fault and leaves its arguments as launched. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both programs end with the result array at one function of the
    arguments: the program's value (the run read back through the regions) is the reference's (its run, stage by stage). -/
theorem algebraic : Cert.algebraic_KernelIdeal_ReferenceIdeal := by
  intro m ρ m' ρ' _ hagree
  refine ⟨fun c => Cert.KernelIdeal.Composite.value
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)),
    Cert.KernelIdeal.Through.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, -, -, h4, h5, h6, h7, h8, h9⟩ := hagree c
  rw [Cert.ReferenceIdeal.Read.val_main_v54_eq, h0, h1, h4, h5, h6, h7, h8, h9]
  exact (Cert.Bridge.value_eq _ _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
